-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024x256 : Shape := ⟨3, ![1024, 1024, 256]⟩
abbrev S1024 : Shape := ⟨1, ![1024]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024x256 : S_.BroadcastsInDim S1024x1024x256 (![] : Fin 0 → Fin S1024x1024x256.rank)
  reducesTo_S1024x1024x256_S_d0_1_2 : S1024x1024x256.ReducesTo [0, 1, 2] S_
  bcast_S_S1024 : S_.BroadcastsInDim S1024 (![] : Fin 0 → Fin S1024.rank)
  reducesTo_S1024_S_d0 : S1024.ReducesTo [0] S_
  slices_S4096x1024_S1x1024_4095_0 : S4096x1024.Slices ![4095, 0] S1x1024
  shapeCasts_S1x1024_S1024 : S1x1024.ShapeCasts S1024

variable [Facts]

def fn_part1 {F : FTy → Type} [FloatOps F] (main_arg1 : IVec S4096x1024 32) (main_v13 : IVec S_ 1) (main_v15 : IVec S1024 32) (main_v16 : IVec S1024 32) : IVec S_ 1 :=
  let main_v17 : IVec S1024 1 := cmpi .sge main_v15 main_v16
  let main_v18 : IVec S1x1024 32 := (extractStridedSlice S1x1024 ![4095, 0] · slices_S4096x1024_S1x1024_4095_0) main_arg1
  let main_v19 : IVec S1024 32 := shapeCast S1024 main_v18 shapeCasts_S1x1024_S1024
  let main_c_5 : IVec S_ 32 := constantI S_ 32 256#32
  let main_v20 : IVec S1024 32 := broadcastInDim S1024 ![] bcast_S_S1024 main_c_5
  let main_v21 : IVec S1024 1 := cmpi .slt main_v19 main_v20
  let main_v22 : IVec S1024 1 := andi main_v17 main_v21
  let main_c_6 : IVec S_ 1 := constantI S_ 1 1#1
  let main_v23 : IVec S_ 1 := (fun x v => Host.reduce IntOp.andi x v reducesTo_S1024_S_d0 h_S_) main_v22 main_c_6
  let main_v24 : IVec S_ 1 := andi main_v13 main_v23
  main_v24

def fn {F : FTy → Type} [FloatOps F] (main_arg0 : FVec F S4096x1024 .f32) (main_arg1 : IVec S4096x1024 32) (main_arg2 : FVec F S1024x1024x256 .f32) (main_arg3 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024x256 .f32 := Host.absf main_arg2
  let main_cst_0 : FVec F S_ .f32 := constant S_ .f32 0x7F800000#32
  let main_v5 : FVec F S1024x1024x256 .f32 := broadcastInDim S1024x1024x256 ![] bcast_S_S1024x1024x256 main_cst_0
  let main_v6 : IVec S1024x1024x256 1 := cmpf .olt main_v4 main_v5
  let main_c_1 : IVec S_ 1 := constantI S_ 1 1#1
  let main_v7 : IVec S_ 1 := (fun x v => Host.reduce IntOp.andi x v reducesTo_S1024x1024x256_S_d0_1_2 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : IVec S1x1024 32 := (extractStridedSlice S1x1024 ![4095, 0] · slices_S4096x1024_S1x1024_4095_0) main_arg1
  let main_v15 : IVec S1024 32 := shapeCast S1024 main_v14 shapeCasts_S1x1024_S1024
  let main_c_4 : IVec S_ 32 := constantI S_ 32 0#32
  let main_v16 : IVec S1024 32 := broadcastInDim S1024 ![] bcast_S_S1024 main_c_4
  fn_part1 (F := F) main_arg1 main_v13 main_v15 main_v16
-- ==== Kernel.lean ====
abbrev S4096x1024 : Shape := ⟨2, ![4096, 1024]⟩
abbrev S1024x1024x256 : Shape := ⟨3, ![1024, 1024, 256]⟩
abbrev S1024 : Shape := ⟨1, ![1024]⟩
abbrev S1x1024 : Shape := ⟨2, ![1, 1024]⟩
abbrev S_ : Shape := ⟨0, ![]⟩
abbrev S1024x256 : Shape := ⟨2, ![1024, 256]⟩
abbrev S1024x1 : Shape := ⟨2, ![1024, 1]⟩
abbrev S1024x1024 : Shape := ⟨2, ![1024, 1024]⟩
abbrev S64x128x128 : Shape := ⟨3, ![64, 128, 128]⟩
abbrev S64x128 : Shape := ⟨2, ![64, 128]⟩
abbrev S64x1x128 : Shape := ⟨3, ![64, 1, 128]⟩

abbrev nBuf : Space → Nat
  | .hbm => 22
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .i32⟩
  | .hbm, ⟨2, _⟩ => ⟨S1024x1024x256, .f32⟩
  | .hbm, ⟨3, _⟩ => ⟨S1024, .f32⟩
  | .hbm, ⟨4, _⟩ => ⟨S1x1024, .i32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024x256, .i32⟩
  | .hbm, ⟨15, _⟩ => ⟨S1024x1, .i32⟩
  | .hbm, ⟨16, _⟩ => ⟨S1024x256, .i32⟩
  | .hbm, ⟨17, _⟩ => ⟨S1024x256, .i1⟩
  | .hbm, ⟨18, _⟩ => ⟨S1024x256, .f32⟩
  | .hbm, ⟨19, _⟩ => ⟨S1024x1024, .bf16⟩
  | .hbm, ⟨20, _⟩ => ⟨S1x1024, .f32⟩
  | .hbm, ⟨21, _⟩ => ⟨S4096x1024, .f32⟩
  | .local _ .vmem, ⟨0, _⟩ => ⟨S64x128x128, .f32⟩
  | .local _ .vmem, ⟨1, _⟩ => ⟨S64x128x128, .f32⟩
  | .local _ .vmem, ⟨2, _⟩ => ⟨S64x128, .f32⟩
  | .local _ .vmem, ⟨3, _⟩ => ⟨S64x128, .f32⟩
  | .local _ .vmem, ⟨4, _⟩ => ⟨S64x128, .bf16⟩
  | .local _ .vmem, ⟨5, _⟩ => ⟨S64x128, .bf16⟩
  | .local _ .vmem, ⟨6, _⟩ => ⟨S64x128, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S4096x1024_S1x1024_4095_0 : S4096x1024.Slices ![4095, 0] S1x1024
  shapeCasts_S1x1024_S1024 : S1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x128x128_S64x128x128_0_0_0 : ∀ a, (![0, 0, 0] : Fin 3 → Nat) a + S64x128x128.size a ≤ S64x128x128.size a
  h_S64x128x128 : 0 < S64x128x128.numel
  shapeCasts_S64x128_S64x1x128 : S64x128.ShapeCasts S64x1x128
  shapeCasts_S64x1x128_S64x1x128 : S64x1x128.ShapeCasts S64x1x128
  broadcasts_S64x1x128_S64x128x128 : S64x1x128.Broadcasts S64x128x128
  reduces_S64x128x128_S64x128 : S64x128x128.Reduces [2] S64x128
  bitsLt_bf16_f32 : FTy.bits .bf16 < FTy.bits .f32
  packedbf16_S64x128_S64x128_0_0 : (Rect.unit (s := S64x128) ![0, 0] S64x128.size inb_S64x128_S64x128_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S1024x1024x256.size a
  hwx0_0 : ∀ i : grid0.Coords, EltTy.bits .f32 = 32 ∨ (Rect.block (s := S1024x1024x256) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S1024x256.size a
  hwx0_1 : ∀ i : grid0.Coords, EltTy.bits .f32 = 32 ∨ (Rect.block (s := S1024x256) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S1024x1024.size a
  hwx0_2 : ∀ i : grid0.Coords, EltTy.bits .bf16 = 32 ∨ (Rect.block (s := S1024x1024) S64x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg2) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024x256 : Shape := ⟨3, ![1024, 1024, 256]⟩
abbrev S1024 : Shape := ⟨1, ![1024]⟩
abbrev S1x1024 : Shape := ⟨2, ![1, 1024]⟩
abbrev S1024x1x1 : Shape := ⟨3, ![1024, 1, 1]⟩
abbrev S_ : Shape := ⟨0, ![]⟩
abbrev S1 : Shape := ⟨1, ![1]⟩
abbrev S1x1x1 : Shape := ⟨3, ![1, 1, 1]⟩
abbrev S1024x1 : Shape := ⟨2, ![1024, 1]⟩
abbrev S1024x1024x1 : Shape := ⟨3, ![1024, 1024, 1]⟩
abbrev S1024x1024 : Shape := ⟨2, ![1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .i32⟩
  | .hbm, ⟨2, _⟩ => ⟨S1024x1024x256, .f32⟩
  | .hbm, ⟨3, _⟩ => ⟨S1024, .f32⟩
  | .hbm, ⟨4, _⟩ => ⟨S1x1024, .i32⟩
  | .hbm, ⟨5, _⟩ => ⟨S1024, .i32⟩
  | .hbm, ⟨6, _⟩ => ⟨S1024x1x1, .i32⟩
  | .hbm, ⟨7, _⟩ => ⟨S_, .i32⟩
  | .hbm, ⟨8, _⟩ => ⟨S1024x1x1, .i32⟩
  | .hbm, ⟨9, _⟩ => ⟨S1024x1x1, .i1⟩
  | .hbm, ⟨10, _⟩ => ⟨S_, .i32⟩
  | .hbm, ⟨11, _⟩ => ⟨S1024x1x1, .i32⟩
  | .hbm, ⟨12, _⟩ => ⟨S1024x1x1, .i32⟩
  | .hbm, ⟨13, _⟩ => ⟨S1024x1x1, .i32⟩
  | .hbm, ⟨14, _⟩ => ⟨S1, .i32⟩
  | .hbm, ⟨15, _⟩ => ⟨S_, .i32⟩
  | .hbm, ⟨16, _⟩ => ⟨S1024x1x1, .i32⟩
  | .hbm, ⟨17, _⟩ => ⟨S1024x1x1, .i1⟩
  | .hbm, ⟨18, _⟩ => ⟨S1x1x1, .i32⟩
  | .hbm, ⟨19, _⟩ => ⟨S1024x1x1, .i32⟩
  | .hbm, ⟨20, _⟩ => ⟨S1024x1x1, .i1⟩
  | .hbm, ⟨21, _⟩ => ⟨S1024x1x1, .i1⟩
  | .hbm, ⟨22, _⟩ => ⟨S_, .i1⟩
  | .hbm, ⟨23, _⟩ => ⟨S1024x1, .i1⟩
  | .hbm, ⟨24, _⟩ => ⟨S1024x1024x1, .f32⟩
  | .hbm, ⟨25, _⟩ => ⟨S1024x1024x1, .i1⟩
  | .hbm, ⟨26, _⟩ => ⟨S_, .f32⟩
  | .hbm, ⟨27, _⟩ => ⟨S1024x1024x1, .f32⟩
  | .hbm, ⟨28, _⟩ => ⟨S1024x1024x1, .f32⟩
  | .hbm, ⟨29, _⟩ => ⟨S1024x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]

class Facts₀ : Prop where
  slices_S4096x1024_S1x1024_4095_0 : S4096x1024.Slices ![4095, 0] S1x1024
  shapeCasts_S1x1024_S1024 : S1x1024.ShapeCasts S1024
  bcast_S1024_S1024x1x1_0 : S1024.BroadcastsInDim S1024x1x1 (![0] : Fin 1 → Fin S1024x1x1.rank)
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  h_S_ : 0 < S_.numel
  bcast_S1024x1_S1024x1024x1_0_2 : S1024x1.BroadcastsInDim S1024x1024x1 (![0, 2] : Fin 2 → Fin S1024x1024x1.rank)
  bcast_S_S1024x1024x1 : S_.BroadcastsInDim S1024x1024x1 (![] : Fin 0 → Fin S1024x1024x1.rank)
  shapeCasts_S1024x1024x1_S1024x1024 : S1024x1024x1.ShapeCasts S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  gather_S1024x1024x256_S1024x1x1_S1024x1024x1_1_2_0_0_2_2_110241_wf : GatherDims.WF S1024x1024x256 S1024x1x1 S1024x1024x1 [1] [2] [0] [2] [0] 2 ![1, 1024, 1]
  dot_S4096x1024_S1024x1024_S4096x1024_1_1_0_0_n_n_wf : DotDims.WF S4096x1024 S1024x1024 S4096x1024 [1] [1] [0] [0] [] []

variable [Facts₀]

def gather_S1024x1024x256_S1024x1x1_S1024x1024x1_1_2_0_0_2_2_110241 : GatherDims S1024x1024x256 S1024x1x1 S1024x1024x1 where
  offsetDims := [1]
  collapsedSliceDims := [2]
  operandBatchingDims := [0]
  startIndicesBatchingDims := [0]
  startIndexMap := [2]
  indexVectorDim := 2
  sliceSizes := ![1, 1024, 1]
  wf := gather_S1024x1024x256_S1024x1x1_S1024x1024x1_1_2_0_0_2_2_110241_wf
def dot_S4096x1024_S1024x1024_S4096x1024_1_1_0_0_n_n : DotDims S4096x1024 S1024x1024 S4096x1024 where
  lhsContracting := [1]
  rhsContracting := [1]
  lhsNonContracting := [0]
  rhsNonContracting := [0]
  lhsBatch := []
  rhsBatch := []
  wf := dot_S4096x1024_S1024x1024_S4096x1024_1_1_0_0_n_n_wf

class Facts : Prop extends Facts₀ where

variable [Facts]
-- ==== Proof.K.R0.lean ====
/-
  Region 0: the gather as a sum against an indicator, accumulated over the quantile axis in two halves.

  The grid is (16, 8, 2): output tile (j, k) of 64 × 128 entries, quantile half c.  At a point the body
  reads the 64 × 128 × 128 block of the weights and the 64 × 128 block of the indicator, forms
  Σ_q iw[a, b, q] · oh[a, q] over the 128 quantiles of the half, adds it to a scratch accumulator that it
  first clears when c = 0, and stores the accumulator, narrowed, as the output tile.  So the scratch after
  a point with c = 0 is "zero plus that half's sum", and after the following point (c = 1, the same tile)
  it is that plus the second half's sum: the accumulation never reaches further back than one point, and the
  invariant between points only has to remember the scratch when the next point has c = 1.
  Everything here is stated for any float instance.
-/
import proofs.«424812_j22239340659214_3_alg».proof.Proof.Gen.Kernel.Launch
import proofs.«424812_j22239340659214_3_alg».proof.Proof.Gen.Kernel.Skeleton
import proofs.«424812_j22239340659214_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: is this the first half of the quantile axis? -/

/-- The branch condition, from the grid coordinates: the innermost coordinate is zero. -/
abbrev cond0 (i : grid0.Coords) : Prop :=
  (Scalar.cmpi .ne (Scalar.extui (Scalar.cmpi .eq (BitVec.ofNat 32 (i 2).val) 0#32)) 0#32) = 1#1

/-- It holds exactly at the even points (the innermost axis has extent 2). -/
theorem hcond0 : ∀ t : Fin cfg0.N, cond0 (grid0.coords t) ↔ t.val % 2 = 0 :=
  (by decide +kernel : ∀ t : Fin grid0.N, cond0 (grid0.coords t) ↔ t.val % 2 = 0)

/-- The scratch accumulator, a whole buffer of the kernel's own. -/
abbrev scM : Memref sig .tc .vmem S64x128 .f32 := Memref.whole cc0_scratch0

theorem hz2 : (![0, 0] : Fin S64x128.rank → Nat) = fun _ => 0 := by funext a; fin_cases a <;> rfl
theorem hz3 : (![0, 0, 0] : Fin S64x128x128.rank → Nat) = fun _ => 0 := by funext a; fin_cases a <;> rfl

/-! ## The body's two runs -/

set_option maxHeartbeats 1000000 in
/-- FIRST HALF (c = 0): whatever the scratch held, it ends at "cleared, plus this half's sum", and the output
    tile at that value narrowed; the inputs are left as they were. -/
theorem sound_first (c : Dev nD) (E : Set ℕ) (i : grid0.Coords)
    (arg3 : Memref sig .tc .vmem S64x128x128 .f32) (harg3 : arg3.IsWhole) (arg4 : Memref sig .tc .vmem S64x128 .f32) (harg4 : arg4.IsWhole)
    (arg5 : Memref sig .tc .vmem S64x128 .bf16) (harg5 : arg5.IsWhole) (arg6 : Memref sig .tc .vmem S64x128 .f32) (harg6 : arg6.IsWhole)
    (hc : cond0 i) (x0 : Vec F S64x128x128 .f32) (x1 : Vec F S64x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ s, owns (c : Thread nD τ) arg6 fullShare s)
        ∗ (iprop(owns (c : Thread nD τ) arg3 fullShare x0 ∗ owns (c : Thread nD τ) arg4 fullShare x1
            ∗ owns (c : Thread nD τ) arg5 fullShare (k0_pay3 (k0_pay2 x0 x1 (k0_pay1 (F := F))))
            ∗ owns (c : Thread nD τ) arg6 fullShare (k0_pay2 x0 x1 (k0_pay1 (F := F)))) -∗ K ⟨⟩))
      ⊢ wp frame (wpE (defs₀ (F := F)) Variants.none c none) E (cc0__gather_kernel i arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%s3, %f3, -, H3⟩, Hk⟩
  obtain rfl := harg3.eq_unread hf0; obtain rfl := harg4.eq_unread hf1
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    rw [View.read_writes_eq_canon _ _ _ (View.cover_of_tiled _ S64x128.size (by rfl))]
    sl_unfold_words
    rw [View.canon_unit_zero hz2, View.readCov_eq_canon_ld _ _ _ (View.cover_of_tiledL _ S64x128.size (by rfl)),
      View.canon_cons_unit_zero hz2, View.ld_unit_zero hz2]
    simp only [View.readAt_eq_ld, harg3.read_unread, harg4.read_unread, View.ld_unit_zero (S := S64x128x128) hz3,
      View.ld_unit_zero (S := S64x128) hz2, View.readCov_unit_zero (S := S64x128) _ hz2]
  · iexists _; isplitr; swap; · iexact H3
    ipureintro
    sl_unfold_words
    rw [View.read_writes_eq_canon _ _ _ (View.cover_of_tiledL _ S64x128.size (by rfl)), View.canon_cons_unit_zero hz2]
    simp only [View.readAt_eq_ld, harg3.read_unread, harg4.read_unread, View.ld_unit_zero (S := S64x128x128) hz3,
      View.ld_unit_zero (S := S64x128) hz2, View.readCov_unit_zero (S := S64x128) _ hz2]

set_option maxHeartbeats 1000000 in
/-- SECOND HALF (c ≠ 0): the scratch, at `s`, ends at `s` plus this half's sum, and the output tile at that
    value narrowed; the inputs are left as they were. -/
theorem sound_second (c : Dev nD) (E : Set ℕ) (i : grid0.Coords)
    (arg3 : Memref sig .tc .vmem S64x128x128 .f32) (harg3 : arg3.IsWhole) (arg4 : Memref sig .tc .vmem S64x128 .f32) (harg4 : arg4.IsWhole)
    (arg5 : Memref sig .tc .vmem S64x128 .bf16) (harg5 : arg5.IsWhole) (arg6 : Memref sig .tc .vmem S64x128 .f32) (harg6 : arg6.IsWhole)
    (hc : ¬cond0 i) (x0 : Vec F S64x128x128 .f32) (x1 : Vec F S64x128 .f32) (s : Vec F S64x128 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 x0 x1 s))
            ∗ owns (c : Thread nD τ) arg6 fullShare (k0_pay2 x0 x1 s)) -∗ K ⟨⟩))
      ⊢ wp frame (wpE (defs₀ (F := F)) Variants.none c none) E (cc0__gather_kernel i arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%f3, %hf3, H3⟩, Hk⟩
  obtain rfl := harg3.eq_unread hf0; obtain rfl := harg4.eq_unread hf1; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    rw [View.read_writes_eq_canon _ _ _ (View.cover_of_tiled _ S64x128.size (by rfl))]
    sl_unfold_words
    rw [View.canon_unit_zero hz2, View.readCov_unit_zero (S := S64x128) _ hz2]
    simp only [View.readAt_eq_ld, harg3.read_unread, harg4.read_unread, harg6.read_unread, View.ld_unit_zero (S := S64x128x128) hz3,
      View.ld_unit_zero (S := S64x128) hz2]
  · iexists _; isplitr; swap; · iexact H3
    ipureintro
    sl_unfold_words
    rw [View.read_writes_eq_canon _ _ _ (View.cover_of_tiled _ S64x128.size (by rfl)), View.canon_unit_zero hz2]
    simp only [View.readAt_eq_ld, harg3.read_unread, harg4.read_unread, harg6.read_unread, View.ld_unit_zero (S := S64x128x128) hz3,
      View.ld_unit_zero (S := S64x128) hz2]

/-! ## The scratch after each point, in closed form -/

/-- The point before `t`: when `t` is a second half, the first half of the same output tile. -/
abbrev prev0 (t : Fin cfg0.N) : Fin cfg0.N := ⟨t.val - 1, lt_of_le_of_lt (Nat.sub_le _ _) t.isLt⟩

/-- What the scratch holds after the body at point `t`: after a first half, "cleared plus its sum"; after a
    second half, that of the point before plus this half's sum. -/
def scAfter (c : Dev nD) (t : Fin cfg0.N) : Vec F S64x128 .f32 :=
  if t.val % 2 = 0 then k0_pay2 (iblk0 V c 0 t) (iblk0 V c 1 t) (k0_pay1 (F := F))
  else k0_pay2 (iblk0 V c 0 t) (iblk0 V c 1 t)
    (k0_pay2 (iblk0 V c 0 (prev0 t)) (iblk0 V c 1 (prev0 t)) (k0_pay1 (F := F)))

theorem scAfter_even (c : Dev nD) (t : Fin cfg0.N) (h : t.val % 2 = 0) :
    scAfter V c t = k0_pay2 (iblk0 V c 0 t) (iblk0 V c 1 t) (k0_pay1 (F := F)) := by
  unfold scAfter; rw [if_pos h]

theorem scAfter_odd (c : Dev nD) (t : Fin cfg0.N) (h : ¬t.val % 2 = 0) :
    scAfter V c t = k0_pay2 (iblk0 V c 0 t) (iblk0 V c 1 t)
      (k0_pay2 (iblk0 V c 0 (prev0 t)) (iblk0 V c 1 (prev0 t)) (k0_pay1 (F := F))) := by
  unfold scAfter; rw [if_neg h]

/-! ## The invariant between points -/

/-- The scoped buffers that are neither a staging buffer of this region nor its scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scratch before point `n`: at some contents, which before a SECOND half (odd `n`) are what the first
    half left.  Before a first half nothing is remembered: the body clears the scratch there. -/
def scInv (c : Dev nD) (n : ℕ) : sProp 𝕄 :=
  iprop(∃ s : Vec F S64x128 .f32, ⌜n % 2 = 1 → ∀ h : n - 1 < cfg0.N, s = scAfter V c ⟨n - 1, h⟩⌝ ∗ owns (c : Thread nD τ) scM fullShare s)

/-- The region's invariant: the scratch as above, the other scoped buffers, the generator register. -/
def Φ0 (c : Dev nD) (t : Fin (cfg0.N + 1)) : sProp 𝕄 :=
  iprop(scInv V c t.val ∗ rest0 (F := F) c ∗ ∃ r, prngReg c r)

/-! ## The proof data -/

/-- Pipeline 0's proof data on core `c`: the arrays as the region finds them; after the body at point `t` each
    input's buffer at its block and the output's at the scratch's contents narrowed; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scAfter V c t)
  Φ t := Φ0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scAfter V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point.  At an even point the first-half run applies whatever the scratch holds; at an odd one
    the invariant says the scratch holds what the point before left, and the second-half run adds to it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Φ0 V c t.succ from rfl, show (dat0 V c).Φ t.castSucc = Φ0 V c t.castSucc from rfl,
    after0_0, after0_1, after0_2]
  unfold Φ0 scInv
  iintro ⟨⟨⟨%s, %hs, Hs⟩, Hrest, Hp⟩, Ho, ⟨%d0, H0⟩, ⟨%d1, H1⟩, ⟨%d2, H2⟩⟩
  by_cases hc : t.val % 2 = 0
  · iapply (sound_first c Set.univ _ _ _ _ _ _ _ _ _ ((hcond0 t).2 hc) (iblk0 V c 0 t) (iblk0 V c 1 t) _)
    isplitl [H0]; · iexact H0
    isplitl [H1]; · iexact H1
    isplitl [H2]; · iexists _; iexact H2
    isplitl [Hs]; · iexists _; iexact Hs
    iintro ⟨H0, H1, H2, Hs⟩
    isplitl [Hs Hrest Hp]
    · isplitl [Hs]
      · iexists _; isplitr; swap; · iexact Hs
        ipureintro
        intro _ h
        rw [show (⟨(t.succ : Fin (cfg0.N + 1)).val - 1, h⟩ : Fin cfg0.N) = t from Fin.ext (by simp), scAfter_even V c t hc]
      isplitl [Hrest]; · iexact Hrest
      iexact Hp
    isplitl [Ho]; · iexact Ho
    isplitl [H0]; · iexact H0
    isplitl [H1]; · iexact H1
    rw [scAfter_even V c t hc]; iexact H2
  · have hodd : (t.castSucc : Fin (cfg0.N + 1)).val % 2 = 1 := by
      have : t.val % 2 = 1 := by omega
      simpa using this
    have hprev : (⟨(t.castSucc : Fin (cfg0.N + 1)).val - 1, lt_of_le_of_lt (Nat.sub_le _ _) (by simp)⟩ : Fin cfg0.N) = prev0 t :=
      Fin.ext (by simp)
    have hs' : s = k0_pay2 (iblk0 V c 0 (prev0 t)) (iblk0 V c 1 (prev0 t)) (k0_pay1 (F := F)) := by
      rw [hs hodd (lt_of_le_of_lt (Nat.sub_le _ _) (by simp)), hprev]
      exact scAfter_even V c (prev0 t) (by show (t.val - 1) % 2 = 0; omega)
    subst hs'
    iapply (sound_second c Set.univ _ _ _ _ _ _ _ _ _ (fun h => hc ((hcond0 t).1 h)) (iblk0 V c 0 t) (iblk0 V c 1 t) _ _)
    isplitl [H0]; · iexact H0
    isplitl [H1]; · iexact H1
    isplitl [H2]; · iexists _; iexact H2
    isplitl [Hs]; · iexact Hs
    iintro ⟨H0, H1, H2, Hs⟩
    isplitl [Hs Hrest Hp]
    · isplitl [Hs]
      · iexists _; isplitr; swap; · iexact Hs
        ipureintro
        intro _ h
        rw [show (⟨(t.succ : Fin (cfg0.N + 1)).val - 1, h⟩ : Fin cfg0.N) = t from Fin.ext (by simp), scAfter_odd V c t hc]
      isplitl [Hrest]; · iexact Hrest
      iexact Hp
    isplitl [Ho]; · iexact Ho
    isplitl [H0]; · iexact H0
    isplitl [H1]; · iexact H1
    rw [scAfter_odd V c t hc]; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1: the contraction with the effective weights, plus the bias.

  The grid is (4): batch tile b of 1024 rows.  At a point the body reads the 1024 × 1024 block of x, the whole
  effective weight matrix and the bias row, and stores x·wᵀ + bias as the 1024 × 1024 output tile in one store.
  It keeps nothing between points, so the invariant is just the scoped buffers it does not touch and the
  generator register.  Everything here is stated for any float instance.
-/
import proofs.«424812_j22239340659214_3_alg».proof.Proof.Gen.Kernel.Launch
import proofs.«424812_j22239340659214_3_alg».proof.Proof.Gen.Kernel.Skeleton
import proofs.«424812_j22239340659214_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether fetched there or not (the weight
    matrix and the bias row are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem hzE : (![0, 0] : Fin S1024x1024.rank → Nat) = fun _ => 0 := by funext a; fin_cases a <;> rfl
theorem hzR : (![0, 0] : Fin S1x1024.rank → Nat) = fun _ => 0 := by funext a; fin_cases a <;> rfl

set_option maxHeartbeats 1000000 in
/-- The body on whole staging memrefs: the inputs at `x0`, `x1`, `x2` are left as they were and the output,
    whatever it held, ends at the body's one stored value of them. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  rw [View.read_writes_eq_canon _ _ _ (View.cover_of_tiled _ S1024x1024.size (by rfl))]
  sl_unfold_words
  rw [View.canon_unit_zero hzE]
  simp only [View.readAt_eq_ld, harg1.read_unread, harg2.read_unread, harg3.read_unread, View.ld_unit_zero (S := S1024x1024) hzE,
    View.ld_unit_zero (S := S1x1024) hzR]

/-- Pipeline 1's proof data on core `c`: the arrays as the region finds them; after the body at point `t` each input's
    buffer at its block and the output's at the stored value of the three blocks; the invariant the scoped rest and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run: @main's four host stretches and two regions, composed in order.

  Between two items each core holds every unscoped buffer at a known valuation: the launch memory, then each host
  stretch applied, then — at a region's exit — the region's arrays at what its write-backs leave and every other
  buffer as it was.  Each region is entered from the valuation before it and left at the one after it; the
  generator register and "nothing owed" ride along.  The one launch ends with every unscoped buffer read at the
  last valuation, from which both the frame (each argument walks back through the fold to the launch memory)
  and the result (the last region's output array) are read.  Stated for any float instance.
-/
import proofs.«424812_j22239340659214_3_alg».proof.Proof.K.R0
import proofs.«424812_j22239340659214_3_alg».proof.Proof.K.R1
import proofs.«424812_j22239340659214_3_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the regions' boundaries -/

/-- Region 0's entry contents, read at the TensorCore's references: the launch memory after the three host stretches. -/
abbrev U3 : (c : Dev nD) → (b : Ref sig .tc) → Buf (Elt F) ((c : Thread nD τ).loc b) := fun c b => V3 m c b

/-- At region 0's exit: its arrays at what the pipeline leaves, every other buffer as entered. -/
def W4 (c : Dev nD) : Valuation τ sig (Elt F) :=
  Pipeline.withArrays spec0 c (V3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

/-- After the bias reshape (region 1's entry). -/
abbrev W5 : Dev nD → Valuation τ sig (Elt F) := fun c => StableHlo.after hostOps1 (W4 m c)
abbrev U5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h

/-- At region 1's exit. -/
def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev U6 : (c : Dev nD) → (b : Ref sig .tc) → Buf (Elt F) ((c : Thread nD τ).loc b) := fun c b => W6 m c b
theorem hF1 (c : Dev nD) (w : Fin cfg1.W) : (dat1 (U5 m) c).arrAt w cfg1.N = U6 m c (Pipeline.arrRef spec1 w) :=
  (W6_arr m c w).symm
theorem hrest1 (c : Dev nD) : ∀ b, b ∉ Finset.univ.image (Pipeline.arrRef spec1) → U6 m c b = U5 m c b :=
  fun b hb => W6_of_ne m c b fun w e => hb (Finset.mem_image.mpr ⟨w, Finset.mem_univ _, e⟩)

/-! ## The arguments end as launched -/

theorem V3_arg (c : Dev nD) (r : Ref sig .tc) (h0 : r ∉ hostOps0_W) (h1 : r ∉ hostOps0_1_W) (h2 : r ∉ hostOps0_2_W) :
    V3 m c r = m ((c : Thread nD τ).loc r) :=
  (V3_of m c r h2).trans <| (V2_of m c r h1).trans <| (V1_of m c r h0).trans rfl

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat1 (U5 m) c).arrAt_in 0 rfl _).trans (A_eq1 (U5 m) c 0))
    _ = W4 m c (Proc.devRef .tc main_arg0) := W5_of m c main_arg0 (by decide)
    _ = V3 m c (Proc.devRef .tc main_arg0) := W4_of_ne m c main_arg0 (by decide)
    _ = m ((c : Thread nD τ).loc main_arg0) := V3_arg m c main_arg0 (by decide) (by decide) (by decide)
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = V3 m c (Proc.devRef .tc main_arg1) := W4_of_ne m c main_arg1 (by decide)
    _ = m ((c : Thread nD τ).loc main_arg1) := V3_arg m c main_arg1 (by decide) (by decide) (by decide)
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = V3 m c (Proc.devRef .tc main_arg2) := (W4_arr m c 0).trans (((dat0 (U3 m) c).arrAt_in 0 rfl _).trans (A_eq0 (U3 m) c 0))
    _ = m ((c : Thread nD τ).loc main_arg2) := V3_arg m c main_arg2 (by decide) (by decide) (by decide)
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = V3 m c (Proc.devRef .tc main_arg3) := W4_of_ne m c main_arg3 (by decide)
    _ = m ((c : Thread nD τ).loc main_arg3) := V3_arg m c main_arg3 (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U3 m) c
  | ⟨1, _⟩ => fun c => dat1 (U5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-- Region 0's invariant at its two ends, against the scoped buffers no window of it stages. -/
theorem Φ0_first (c : Dev nD) :
    iprop((∃ r, prngReg c r) ∗ Pipeline.scopedRest (Ix := Unit) (Name := ℕ) (U := UR sig nD τ) (Lvl := ℕ) (Val := Elt F) spec0 c) ⊢ (Φ0 (U3 m) c 0 : sProp 𝕄) := by
  rw [scopedRest0_eq]; unfold Φ0 scInv rest0; simp only [scM, owns_whole]
  iintro ⟨Hp, ⟨%f, Hf⟩, Hrest⟩
  isplitl [Hf]
  · iexists f; isplitr; · ipureintro; intro h; exact absurd h (by decide)
    iexact Hf
  isplitl [Hrest]; · iexact Hrest
  iexact Hp
theorem Φ0_last (c : Dev nD) :
    (Φ0 (U3 m) c (Fin.last cfg0.N) : sProp 𝕄) ⊢ iprop((∃ r, prngReg c r) ∗ Pipeline.scopedRest (Ix := Unit) (Name := ℕ) (U := UR sig nD τ) (Lvl := ℕ) (Val := Elt F) spec0 c) := by
  rw [scopedRest0_eq]; unfold Φ0 scInv rest0; simp only [scM, owns_whole]
  iintro ⟨⟨%s, -, Hs⟩, Hrest, Hp⟩
  isplitl [Hp]; · iexact Hp
  isplitl [Hs]; · iexists s; iexact Hs
  iexact Hrest

/-! ## The regions as segments -/

set_option backward.isDefEq.respectTransparency.types false in
/-- REGION 0: entered from every unscoped buffer at the contents after the three host stretches, left at `W4`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Φ0 (U3 m) c 0 from rfl]
    iintro ⟨Hp, -, Hr⟩
    iapply (Φ0_first m c)
    isplitl [Hp]; · iexact Hp
    iexact Hr
  hout c := by
    rw [Pipeline.ownSems0_none, show (pdats m 0 c).Φ (Fin.last _) = Φ0 (U3 m) c (Fin.last cfg0.N) from rfl]
    iintro H
    ihave H' := (Φ0_last m c) $$ H
    icases H' with ⟨Hp, Hr⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W5`, left at `W6` (what the launch reads at the end). -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm' (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m) ]

set_option backward.isDefEq.respectTransparency.types false in
/-- THE RUN: from any memory with zero counters every weakly fair execution of @main terminates, nothing faulting,
    and every final state holds each unscoped buffer at the last valuation `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm' (pdats m) () cellOf_inj emb₁ defs₀ 𝒱₀ L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- THE RESULT beside the frame: the output buffer ends at what the second region's write-backs leave. -/
theorem run_result : θ_run defs (onTc (τ := τ) (main (F := F))) ⟨m, fun _ => 0, ρ⟩ (fun r => ∀ c : Dev nD,
      r.2.mem ((c.tc : Thread nD τ).loc main_v10) = (dat1 (U5 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v10 (by decide))).trans (W6_arr m c 3),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Hand

end
-- ==== Proof.KI.R0.lean ====
/-
  Region 0: the gather as a sum against an indicator, accumulated over the quantile axis in two halves.

  The grid is (16, 8, 2): output tile (j, k) of 64 × 128 entries, quantile half c.  At a point the body
  reads the 64 × 128 × 128 block of the weights and the 64 × 128 block of the indicator, forms
  Σ_q iw[a, b, q] · oh[a, q] over the 128 quantiles of the half, adds it to a scratch accumulator that it
  first clears when c = 0, and stores the accumulator, narrowed, as the output tile.  So the scratch after
  a point with c = 0 is "zero plus that half's sum", and after the following point (c = 1, the same tile)
  it is that plus the second half's sum: the accumulation never reaches further back than one point, and the
  invariant between points only has to remember the scratch when the next point has c = 1.
  Everything here is stated for any float instance.
-/
import proofs.«424812_j22239340659214_3_alg».proof.Proof.Gen.KernelIdeal.Launch
import proofs.«424812_j22239340659214_3_alg».proof.Proof.Gen.KernelIdeal.Skeleton
import proofs.«424812_j22239340659214_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: is this the first half of the quantile axis? -/

/-- The branch condition, from the grid coordinates: the innermost coordinate is zero. -/
abbrev cond0 (i : grid0.Coords) : Prop :=
  (Scalar.cmpi .ne (Scalar.extui (Scalar.cmpi .eq (BitVec.ofNat 32 (i 2).val) 0#32)) 0#32) = 1#1

/-- It holds exactly at the even points (the innermost axis has extent 2). -/
theorem hcond0 : ∀ t : Fin cfg0.N, cond0 (grid0.coords t) ↔ t.val % 2 = 0 :=
  (by decide +kernel : ∀ t : Fin grid0.N, cond0 (grid0.coords t) ↔ t.val % 2 = 0)

/-- The scratch accumulator, a whole buffer of the kernel's own. -/
abbrev scM : Memref sig .tc .vmem S64x128 .f32 := Memref.whole cc0_scratch0

theorem hz2 : (![0, 0] : Fin S64x128.rank → Nat) = fun _ => 0 := by funext a; fin_cases a <;> rfl
theorem hz3 : (![0, 0, 0] : Fin S64x128x128.rank → Nat) = fun _ => 0 := by funext a; fin_cases a <;> rfl

/-! ## The body's two runs -/

set_option maxHeartbeats 1000000 in
/-- FIRST HALF (c = 0): whatever the scratch held, it ends at "cleared, plus this half's sum", and the output
    tile at that value narrowed; the inputs are left as they were. -/
theorem sound_first (c : Dev nD) (E : Set ℕ) (i : grid0.Coords)
    (arg3 : Memref sig .tc .vmem S64x128x128 .f32) (harg3 : arg3.IsWhole) (arg4 : Memref sig .tc .vmem S64x128 .f32) (harg4 : arg4.IsWhole)
    (arg5 : Memref sig .tc .vmem S64x128 .bf16) (harg5 : arg5.IsWhole) (arg6 : Memref sig .tc .vmem S64x128 .f32) (harg6 : arg6.IsWhole)
    (hc : cond0 i) (x0 : Vec F S64x128x128 .f32) (x1 : Vec F S64x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ s, owns (c : Thread nD τ) arg6 fullShare s)
        ∗ (iprop(owns (c : Thread nD τ) arg3 fullShare x0 ∗ owns (c : Thread nD τ) arg4 fullShare x1
            ∗ owns (c : Thread nD τ) arg5 fullShare (k0_pay3 (k0_pay2 x0 x1 (k0_pay1 (F := F))))
            ∗ owns (c : Thread nD τ) arg6 fullShare (k0_pay2 x0 x1 (k0_pay1 (F := F)))) -∗ K ⟨⟩))
      ⊢ wp frame (wpE (defs₀ (F := F)) Variants.none c none) E (cc0__gather_kernel i arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%s3, %f3, -, H3⟩, Hk⟩
  obtain rfl := harg3.eq_unread hf0; obtain rfl := harg4.eq_unread hf1
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    rw [View.read_writes_eq_canon _ _ _ (View.cover_of_tiled _ S64x128.size (by rfl))]
    sl_unfold_words
    rw [View.canon_unit_zero hz2, View.readCov_eq_canon_ld _ _ _ (View.cover_of_tiledL _ S64x128.size (by rfl)),
      View.canon_cons_unit_zero hz2, View.ld_unit_zero hz2]
    simp only [View.readAt_eq_ld, harg3.read_unread, harg4.read_unread, View.ld_unit_zero (S := S64x128x128) hz3,
      View.ld_unit_zero (S := S64x128) hz2, View.readCov_unit_zero (S := S64x128) _ hz2]
  · iexists _; isplitr; swap; · iexact H3
    ipureintro
    sl_unfold_words
    rw [View.read_writes_eq_canon _ _ _ (View.cover_of_tiledL _ S64x128.size (by rfl)), View.canon_cons_unit_zero hz2]
    simp only [View.readAt_eq_ld, harg3.read_unread, harg4.read_unread, View.ld_unit_zero (S := S64x128x128) hz3,
      View.ld_unit_zero (S := S64x128) hz2, View.readCov_unit_zero (S := S64x128) _ hz2]

set_option maxHeartbeats 1000000 in
/-- SECOND HALF (c ≠ 0): the scratch, at `s`, ends at `s` plus this half's sum, and the output tile at that
    value narrowed; the inputs are left as they were. -/
theorem sound_second (c : Dev nD) (E : Set ℕ) (i : grid0.Coords)
    (arg3 : Memref sig .tc .vmem S64x128x128 .f32) (harg3 : arg3.IsWhole) (arg4 : Memref sig .tc .vmem S64x128 .f32) (harg4 : arg4.IsWhole)
    (arg5 : Memref sig .tc .vmem S64x128 .bf16) (harg5 : arg5.IsWhole) (arg6 : Memref sig .tc .vmem S64x128 .f32) (harg6 : arg6.IsWhole)
    (hc : ¬cond0 i) (x0 : Vec F S64x128x128 .f32) (x1 : Vec F S64x128 .f32) (s : Vec F S64x128 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 x0 x1 s))
            ∗ owns (c : Thread nD τ) arg6 fullShare (k0_pay2 x0 x1 s)) -∗ K ⟨⟩))
      ⊢ wp frame (wpE (defs₀ (F := F)) Variants.none c none) E (cc0__gather_kernel i arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%d2, %f2, -, H2⟩, ⟨%f3, %hf3, H3⟩, Hk⟩
  obtain rfl := harg3.eq_unread hf0; obtain rfl := harg4.eq_unread hf1; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    rw [View.read_writes_eq_canon _ _ _ (View.cover_of_tiled _ S64x128.size (by rfl))]
    sl_unfold_words
    rw [View.canon_unit_zero hz2, View.readCov_unit_zero (S := S64x128) _ hz2]
    simp only [View.readAt_eq_ld, harg3.read_unread, harg4.read_unread, harg6.read_unread, View.ld_unit_zero (S := S64x128x128) hz3,
      View.ld_unit_zero (S := S64x128) hz2]
  · iexists _; isplitr; swap; · iexact H3
    ipureintro
    sl_unfold_words
    rw [View.read_writes_eq_canon _ _ _ (View.cover_of_tiled _ S64x128.size (by rfl)), View.canon_unit_zero hz2]
    simp only [View.readAt_eq_ld, harg3.read_unread, harg4.read_unread, harg6.read_unread, View.ld_unit_zero (S := S64x128x128) hz3,
      View.ld_unit_zero (S := S64x128) hz2]

/-! ## The scratch after each point, in closed form -/

/-- The point before `t`: when `t` is a second half, the first half of the same output tile. -/
abbrev prev0 (t : Fin cfg0.N) : Fin cfg0.N := ⟨t.val - 1, lt_of_le_of_lt (Nat.sub_le _ _) t.isLt⟩

/-- What the scratch holds after the body at point `t`: after a first half, "cleared plus its sum"; after a
    second half, that of the point before plus this half's sum. -/
def scAfter (c : Dev nD) (t : Fin cfg0.N) : Vec F S64x128 .f32 :=
  if t.val % 2 = 0 then k0_pay2 (iblk0 V c 0 t) (iblk0 V c 1 t) (k0_pay1 (F := F))
  else k0_pay2 (iblk0 V c 0 t) (iblk0 V c 1 t)
    (k0_pay2 (iblk0 V c 0 (prev0 t)) (iblk0 V c 1 (prev0 t)) (k0_pay1 (F := F)))

theorem scAfter_even (c : Dev nD) (t : Fin cfg0.N) (h : t.val % 2 = 0) :
    scAfter V c t = k0_pay2 (iblk0 V c 0 t) (iblk0 V c 1 t) (k0_pay1 (F := F)) := by
  unfold scAfter; rw [if_pos h]

theorem scAfter_odd (c : Dev nD) (t : Fin cfg0.N) (h : ¬t.val % 2 = 0) :
    scAfter V c t = k0_pay2 (iblk0 V c 0 t) (iblk0 V c 1 t)
      (k0_pay2 (iblk0 V c 0 (prev0 t)) (iblk0 V c 1 (prev0 t)) (k0_pay1 (F := F))) := by
  unfold scAfter; rw [if_neg h]

/-! ## The invariant between points -/

/-- The scoped buffers that are neither a staging buffer of this region nor its scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scratch before point `n`: at some contents, which before a SECOND half (odd `n`) are what the first
    half left.  Before a first half nothing is remembered: the body clears the scratch there. -/
def scInv (c : Dev nD) (n : ℕ) : sProp 𝕄 :=
  iprop(∃ s : Vec F S64x128 .f32, ⌜n % 2 = 1 → ∀ h : n - 1 < cfg0.N, s = scAfter V c ⟨n - 1, h⟩⌝ ∗ owns (c : Thread nD τ) scM fullShare s)

/-- The region's invariant: the scratch as above, the other scoped buffers, the generator register. -/
def Φ0 (c : Dev nD) (t : Fin (cfg0.N + 1)) : sProp 𝕄 :=
  iprop(scInv V c t.val ∗ rest0 (F := F) c ∗ ∃ r, prngReg c r)

/-! ## The proof data -/

/-- Pipeline 0's proof data on core `c`: the arrays as the region finds them; after the body at point `t` each
    input's buffer at its block and the output's at the scratch's contents narrowed; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scAfter V c t)
  Φ t := Φ0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scAfter V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point.  At an even point the first-half run applies whatever the scratch holds; at an odd one
    the invariant says the scratch holds what the point before left, and the second-half run adds to it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Φ0 V c t.succ from rfl, show (dat0 V c).Φ t.castSucc = Φ0 V c t.castSucc from rfl,
    after0_0, after0_1, after0_2]
  unfold Φ0 scInv
  iintro ⟨⟨⟨%s, %hs, Hs⟩, Hrest, Hp⟩, Ho, ⟨%d0, H0⟩, ⟨%d1, H1⟩, ⟨%d2, H2⟩⟩
  by_cases hc : t.val % 2 = 0
  · iapply (sound_first c Set.univ _ _ _ _ _ _ _ _ _ ((hcond0 t).2 hc) (iblk0 V c 0 t) (iblk0 V c 1 t) _)
    isplitl [H0]; · iexact H0
    isplitl [H1]; · iexact H1
    isplitl [H2]; · iexists _; iexact H2
    isplitl [Hs]; · iexists _; iexact Hs
    iintro ⟨H0, H1, H2, Hs⟩
    isplitl [Hs Hrest Hp]
    · isplitl [Hs]
      · iexists _; isplitr; swap; · iexact Hs
        ipureintro
        intro _ h
        rw [show (⟨(t.succ : Fin (cfg0.N + 1)).val - 1, h⟩ : Fin cfg0.N) = t from Fin.ext (by simp), scAfter_even V c t hc]
      isplitl [Hrest]; · iexact Hrest
      iexact Hp
    isplitl [Ho]; · iexact Ho
    isplitl [H0]; · iexact H0
    isplitl [H1]; · iexact H1
    rw [scAfter_even V c t hc]; iexact H2
  · have hodd : (t.castSucc : Fin (cfg0.N + 1)).val % 2 = 1 := by
      have : t.val % 2 = 1 := by omega
      simpa using this
    have hprev : (⟨(t.castSucc : Fin (cfg0.N + 1)).val - 1, lt_of_le_of_lt (Nat.sub_le _ _) (by simp)⟩ : Fin cfg0.N) = prev0 t :=
      Fin.ext (by simp)
    have hs' : s = k0_pay2 (iblk0 V c 0 (prev0 t)) (iblk0 V c 1 (prev0 t)) (k0_pay1 (F := F)) := by
      rw [hs hodd (lt_of_le_of_lt (Nat.sub_le _ _) (by simp)), hprev]
      exact scAfter_even V c (prev0 t) (by show (t.val - 1) % 2 = 0; omega)
    subst hs'
    iapply (sound_second c Set.univ _ _ _ _ _ _ _ _ _ (fun h => hc ((hcond0 t).1 h)) (iblk0 V c 0 t) (iblk0 V c 1 t) _ _)
    isplitl [H0]; · iexact H0
    isplitl [H1]; · iexact H1
    isplitl [H2]; · iexists _; iexact H2
    isplitl [Hs]; · iexact Hs
    iintro ⟨H0, H1, H2, Hs⟩
    isplitl [Hs Hrest Hp]
    · isplitl [Hs]
      · iexists _; isplitr; swap; · iexact Hs
        ipureintro
        intro _ h
        rw [show (⟨(t.succ : Fin (cfg0.N + 1)).val - 1, h⟩ : Fin cfg0.N) = t from Fin.ext (by simp), scAfter_odd V c t hc]
      isplitl [Hrest]; · iexact Hrest
      iexact Hp
    isplitl [Ho]; · iexact Ho
    isplitl [H0]; · iexact H0
    isplitl [H1]; · iexact H1
    rw [scAfter_odd V c t hc]; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1: the contraction with the effective weights, plus the bias.

  The grid is (4): batch tile b of 1024 rows.  At a point the body reads the 1024 × 1024 block of x, the whole
  effective weight matrix and the bias row, and stores x·wᵀ + bias as the 1024 × 1024 output tile in one store.
  It keeps nothing between points, so the invariant is just the scoped buffers it does not touch and the
  generator register.  Everything here is stated for any float instance.
-/
import proofs.«424812_j22239340659214_3_alg».proof.Proof.Gen.KernelIdeal.Launch
import proofs.«424812_j22239340659214_3_alg».proof.Proof.Gen.KernelIdeal.Skeleton
import proofs.«424812_j22239340659214_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether fetched there or not (the weight
    matrix and the bias row are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem hzE : (![0, 0] : Fin S1024x1024.rank → Nat) = fun _ => 0 := by funext a; fin_cases a <;> rfl
theorem hzR : (![0, 0] : Fin S1x1024.rank → Nat) = fun _ => 0 := by funext a; fin_cases a <;> rfl

set_option maxHeartbeats 1000000 in
/-- The body on whole staging memrefs: the inputs at `x0`, `x1`, `x2` are left as they were and the output,
    whatever it held, ends at the body's one stored value of them. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  rw [View.read_writes_eq_canon _ _ _ (View.cover_of_tiled _ S1024x1024.size (by rfl))]
  sl_unfold_words
  rw [View.canon_unit_zero hzE]
  simp only [View.readAt_eq_ld, harg1.read_unread, harg2.read_unread, harg3.read_unread, View.ld_unit_zero (S := S1024x1024) hzE,
    View.ld_unit_zero (S := S1x1024) hzR]

/-- Pipeline 1's proof data on core `c`: the arrays as the region finds them; after the body at point `t` each input's
    buffer at its block and the output's at the stored value of the three blocks; the invariant the scoped rest and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run: @main's four host stretches and two regions, composed in order.

  Between two items each core holds every unscoped buffer at a known valuation: the launch memory, then each host
  stretch applied, then — at a region's exit — the region's arrays at what its write-backs leave and every other
  buffer as it was.  Each region is entered from the valuation before it and left at the one after it; the
  generator register and "nothing owed" ride along.  The one launch ends with every unscoped buffer read at the
  last valuation, from which both the frame (each argument walks back through the fold to the launch memory)
  and the result (the last region's output array) are read.  Stated for any float instance.
-/
import proofs.«424812_j22239340659214_3_alg».proof.Proof.KI.R0
import proofs.«424812_j22239340659214_3_alg».proof.Proof.KI.R1
import proofs.«424812_j22239340659214_3_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the regions' boundaries -/

/-- Region 0's entry contents, read at the TensorCore's references: the launch memory after the three host stretches. -/
abbrev U3 : (c : Dev nD) → (b : Ref sig .tc) → Buf (Elt F) ((c : Thread nD τ).loc b) := fun c b => V3 m c b

/-- At region 0's exit: its arrays at what the pipeline leaves, every other buffer as entered. -/
def W4 (c : Dev nD) : Valuation τ sig (Elt F) :=
  Pipeline.withArrays spec0 c (V3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

/-- After the bias reshape (region 1's entry). -/
abbrev W5 : Dev nD → Valuation τ sig (Elt F) := fun c => StableHlo.after hostOps1 (W4 m c)
abbrev U5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h

/-- At region 1's exit. -/
def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev U6 : (c : Dev nD) → (b : Ref sig .tc) → Buf (Elt F) ((c : Thread nD τ).loc b) := fun c b => W6 m c b
theorem hF1 (c : Dev nD) (w : Fin cfg1.W) : (dat1 (U5 m) c).arrAt w cfg1.N = U6 m c (Pipeline.arrRef spec1 w) :=
  (W6_arr m c w).symm
theorem hrest1 (c : Dev nD) : ∀ b, b ∉ Finset.univ.image (Pipeline.arrRef spec1) → U6 m c b = U5 m c b :=
  fun b hb => W6_of_ne m c b fun w e => hb (Finset.mem_image.mpr ⟨w, Finset.mem_univ _, e⟩)

/-! ## The arguments end as launched -/

theorem V3_arg (c : Dev nD) (r : Ref sig .tc) (h0 : r ∉ hostOps0_W) (h1 : r ∉ hostOps0_1_W) (h2 : r ∉ hostOps0_2_W) :
    V3 m c r = m ((c : Thread nD τ).loc r) :=
  (V3_of m c r h2).trans <| (V2_of m c r h1).trans <| (V1_of m c r h0).trans rfl

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat1 (U5 m) c).arrAt_in 0 rfl _).trans (A_eq1 (U5 m) c 0))
    _ = W4 m c (Proc.devRef .tc main_arg0) := W5_of m c main_arg0 (by decide)
    _ = V3 m c (Proc.devRef .tc main_arg0) := W4_of_ne m c main_arg0 (by decide)
    _ = m ((c : Thread nD τ).loc main_arg0) := V3_arg m c main_arg0 (by decide) (by decide) (by decide)
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = V3 m c (Proc.devRef .tc main_arg1) := W4_of_ne m c main_arg1 (by decide)
    _ = m ((c : Thread nD τ).loc main_arg1) := V3_arg m c main_arg1 (by decide) (by decide) (by decide)
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = V3 m c (Proc.devRef .tc main_arg2) := (W4_arr m c 0).trans (((dat0 (U3 m) c).arrAt_in 0 rfl _).trans (A_eq0 (U3 m) c 0))
    _ = m ((c : Thread nD τ).loc main_arg2) := V3_arg m c main_arg2 (by decide) (by decide) (by decide)
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = V3 m c (Proc.devRef .tc main_arg3) := W4_of_ne m c main_arg3 (by decide)
    _ = m ((c : Thread nD τ).loc main_arg3) := V3_arg m c main_arg3 (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U3 m) c
  | ⟨1, _⟩ => fun c => dat1 (U5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-- Region 0's invariant at its two ends, against the scoped buffers no window of it stages. -/
theorem Φ0_first (c : Dev nD) :
    iprop((∃ r, prngReg c r) ∗ Pipeline.scopedRest (Ix := Unit) (Name := ℕ) (U := UR sig nD τ) (Lvl := ℕ) (Val := Elt F) spec0 c) ⊢ (Φ0 (U3 m) c 0 : sProp 𝕄) := by
  rw [scopedRest0_eq]; unfold Φ0 scInv rest0; simp only [scM, owns_whole]
  iintro ⟨Hp, ⟨%f, Hf⟩, Hrest⟩
  isplitl [Hf]
  · iexists f; isplitr; · ipureintro; intro h; exact absurd h (by decide)
    iexact Hf
  isplitl [Hrest]; · iexact Hrest
  iexact Hp
theorem Φ0_last (c : Dev nD) :
    (Φ0 (U3 m) c (Fin.last cfg0.N) : sProp 𝕄) ⊢ iprop((∃ r, prngReg c r) ∗ Pipeline.scopedRest (Ix := Unit) (Name := ℕ) (U := UR sig nD τ) (Lvl := ℕ) (Val := Elt F) spec0 c) := by
  rw [scopedRest0_eq]; unfold Φ0 scInv rest0; simp only [scM, owns_whole]
  iintro ⟨⟨%s, -, Hs⟩, Hrest, Hp⟩
  isplitl [Hp]; · iexact Hp
  isplitl [Hs]; · iexists s; iexact Hs
  iexact Hrest

/-! ## The regions as segments -/

set_option backward.isDefEq.respectTransparency.types false in
/-- REGION 0: entered from every unscoped buffer at the contents after the three host stretches, left at `W4`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Φ0 (U3 m) c 0 from rfl]
    iintro ⟨Hp, -, Hr⟩
    iapply (Φ0_first m c)
    isplitl [Hp]; · iexact Hp
    iexact Hr
  hout c := by
    rw [Pipeline.ownSems0_none, show (pdats m 0 c).Φ (Fin.last _) = Φ0 (U3 m) c (Fin.last cfg0.N) from rfl]
    iintro H
    ihave H' := (Φ0_last m c) $$ H
    icases H' with ⟨Hp, Hr⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W5`, left at `W6` (what the launch reads at the end). -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm' (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m) ]

set_option backward.isDefEq.respectTransparency.types false in
/-- THE RUN: from any memory with zero counters every weakly fair execution of @main terminates, nothing faulting,
    and every final state holds each unscoped buffer at the last valuation `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm' (pdats m) () cellOf_inj emb₁ defs₀ 𝒱₀ L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- THE RESULT beside the frame: the output buffer ends at what the second region's write-backs leave. -/
theorem run_result : θ_run defs (onTc (τ := τ) (main (F := F))) ⟨m, fun _ => 0, ρ⟩ (fun r => ∀ c : Dev nD,
      r.2.mem ((c.tc : Thread nD τ).loc main_v10) = (dat1 (U5 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v10 (by decide))).trans (W6_arr m c 3),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Hand

end
-- ==== Proof.KI.Pay0.lean ====
/-
  The first kernel's payloads, read at an element over the extended reals.

  At a grid point the body holds a 64 × 128 × 128 block x0 of the weights, a 64 × 128 block x1 of
  the indicator and a 64 × 128 accumulator s.  It clears the accumulator to the zero splat (first
  payload); it replaces s by

      s[a, b] + Σ_q x0[a, b, q] · x1[a, q]                                   (second payload),

  formed as: x1 viewed as [64, 1, 128], repeated along the middle axis to [64, 128, 128],
  multiplied elementwise into x0, summed over the last axis from the zero word, added to s; and it
  stores the accumulator narrowed to a shorter format (third payload), which on the extended
  reals is the identity.  Position (a·1 + 0)·128 + q of the [64, 1, 128] view is position a·128 + q
  of x1, and the repeated array at (a, b, q) is the view at (a, 0, q).

  Last, a sum over 256 positions is the sum over the first 128 plus the sum over the second 128:
  how the two halves of the quantile axis, accumulated from zero, make the whole sum.
-/
import proofs.«424812_j22239340659214_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay0

open Cert.KernelIdeal Cert.KernelIdeal.Gen Idealize.ShloMosaic
open Idealize.ShloMosaic.ValueIdx

/-! ## The re-layout of the indicator block -/

/-- A [64, 128] block viewed as [64, 1, 128] reads, at (a, 0, q), the block at (a, q). -/
theorem view_read {α : Type} (x : S64x128.Idx → α) (h : S64x128.ShapeCasts S64x1x128) (a : Fin 64) (q : Fin 128) :
    shapeCast S64x1x128 x h (ix3 a (0 : Fin 1) q) = x (ix2 a q) :=
  shapeCast_apply x h (ix3 a (0 : Fin 1) q) (ix2 a q)
    (by rw [Shape.rowMajor_val_two, Shape.rowMajor_val_three]
        show a.val * 128 + q.val = (a.val * 1 + 0) * 128 + q.val
        omega)

/-- A [64, 1, 128] array repeated along its middle axis reads, at (a, b, q), the array at (a, 0, q). -/
theorem repeat_read {α : Type} (y : S64x1x128.Idx → α) (h : S64x1x128.Broadcasts S64x128x128) (a : Fin 64) (b q : Fin 128) :
    broadcastTo S64x128x128 y h (ix3 a b q) = y (ix3 a (0 : Fin 1) q) :=
  broadcastTo_apply y h (ix3 a b q) (ix3 a (0 : Fin 1) q) (fun d => match d with
    | ⟨0, _⟩ => by show a.val = if (64 : Nat) = 1 then 0 else a.val; rw [if_neg (by decide)]
    | ⟨1, _⟩ => by show (0 : Nat) = if (1 : Nat) = 1 then 0 else b.val; rw [if_pos rfl]
    | ⟨2, _⟩ => by show q.val = if (128 : Nat) = 1 then 0 else q.val; rw [if_neg (by decide)])

/-- The index a sum over the last axis inserts at (a, b) and coordinate q is (a, b, q). -/
theorem lift_eq (h : S64x128x128.Reduces [2] S64x128) (a : Fin 64) (b q : Fin 128) :
    h.lift (ix2 a b) q = ix3 a b q := by
  funext d
  match d with
  | ⟨0, _⟩ => exact Fin.ext rfl
  | ⟨1, _⟩ => exact Fin.ext rfl
  | ⟨2, _⟩ => exact Fin.ext rfl

/-! ## The payloads -/

/-- The accumulate step over any proofs of its shape relations. -/
theorem pay2_core (x0 : FVec Ideal S64x128x128 .f32) (x1 s : FVec Ideal S64x128 .f32)
    (h1 : S64x128.ShapeCasts S64x128) (h2 : S64x128.ShapeCasts S64x1x128) (h3 : S64x1x128.ShapeCasts S64x1x128)
    (hb : S64x1x128.Broadcasts S64x128x128) (hr : S64x128x128.Reduces [2] S64x128)
    (hφ : FKind.Formats .f32) (hacc : (0x00000000#32 : BitVec 32) = FKind.add.neutral .f32 hφ) (a : Fin 64) (b : Fin 128) :
    shapeCast S64x128
        (addf s (multiReduction (F := Ideal) .add [2] S64x128
          (mulf x0 (broadcastTo S64x128x128 (shapeCast S64x1x128 (shapeCast S64x1x128 (shapeCast S64x128 x1 h1) h2) h3) hb))
          0x00000000#32 hr hφ hacc)) h1 (ix2 a b)
      = s (ix2 a b) + ∑ q : Fin 128, x0 (ix3 a b q) * x1 (ix2 a q) := by
  rw [shapeCast_self _ h1, shapeCast_self x1 h1, shapeCast_self _ h3]
  show s (ix2 a b) + multiReduction (F := Ideal) .add [2] S64x128 _ 0x00000000#32 hr hφ hacc (ix2 a b) = _
  refine congrArg (s (ix2 a b) + ·) ((Ideal.multiReduction_add_single _ _ hr hφ hacc (ix2 a b)).trans ?_)
  show ∑ q : Fin 128, _ = _
  refine Finset.sum_congr rfl fun q _ => ?_
  rw [lift_eq hr a b q]
  show x0 (ix3 a b q) * broadcastTo S64x128x128 (shapeCast S64x1x128 x1 h2) hb (ix3 a b q) = _
  rw [repeat_read, view_read]

/-- The zero splat at an element is 0. -/
theorem pay1_apply (a : Fin 64) (b : Fin 128) : k0_pay1 (F := Ideal) (ValueIdx.ix2 a b) = 0 := by
  unfold k0_pay1
  show shapeCast S64x128 (broadcast S64x128 (Ideal.ofBits .f32 0x00000000#32)) _ (ix2 a b) = 0
  rw [shapeCast_self]
  exact Ideal.ofBits_zero_f32

/-- The accumulate step at an element: the accumulator plus the block's product summed over the
    128 quantiles of the half. -/
theorem pay2_apply (x0 : Vec Ideal S64x128x128 .f32) (x1 : Vec Ideal S64x128 .f32) (s : Vec Ideal S64x128 .f32) (a : Fin 64) (b : Fin 128) :
    k0_pay2 (F := Ideal) x0 x1 s (ValueIdx.ix2 a b) = s (ValueIdx.ix2 a b) + ∑ q : Fin 128, x0 (ValueIdx.ix3 a b q) * x1 (ValueIdx.ix2 a q) := by
  unfold k0_pay2
  exact pay2_core x0 x1 s _ _ _ _ _ _ _ a b

/-- The narrowing is the identity on the extended reals. -/
theorem pay3_apply (v : Vec Ideal S64x128 .f32) (i : S64x128.Idx) : k0_pay3 (F := Ideal) v i = v i := rfl

/-! ## The two halves of the quantile axis -/

/-- A sum over 256 positions, taken as the first 128 from zero and then the second 128. -/
theorem sum_halves (f : Fin 256 → EReal) :
    (0 + ∑ q : Fin 128, f ⟨q.val, by omega⟩) + ∑ q : Fin 128, f ⟨128 + q.val, by omega⟩ = ∑ q : Fin 256, f q := by
  rw [zero_add]
  exact (Fin.sum_univ_add (a := 128) (b := 128) (f : Fin (128 + 128) → EReal)).symm

end Cert.KernelIdeal.Pay0

end
-- ==== Proof.KI.Val0.lean ====
/-
  Region 0's output array: the effective weights as a sum over the whole quantile axis.

  The grid is (16, 8, 2), the last coordinate fastest: point t has output tile (t / 16, t / 2 mod 8) and quantile
  half t mod 2.  An output tile is written back after its second half only, holding the first half's sum plus the
  second half's; the tiles written back cover the array, so every entry of it is the sum over all 256 quantiles of
  weight times indicator.
-/
import proofs.«424812_j22239340659214_3_alg».proof.Proof.KI.R0
import proofs.«424812_j22239340659214_3_alg».proof.Proof.KI.Pay0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val0

open Cert.KernelIdeal Cert.KernelIdeal.Gen Cert.KernelIdeal.Hand Cert.KernelIdeal.Pay0
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The weights as the region finds them, an array of extended reals. -/
abbrev iwArr (c : Dev nD) : S1024x1024x256.Idx → EReal := V c main_arg2
/-- The indicator as the region finds it. -/
abbrev ohArr (c : Dev nD) : S1024x256.Idx → EReal := V c main_v7

/-- The effective weight at (j, k): the sum over the whole quantile axis of weight times indicator. -/
def wSum (c : Dev nD) (j k : Fin 1024) : EReal :=
  ∑ q : Fin 256, iwArr V c (ValueIdx.ix3 j k q) * ohArr V c (ValueIdx.ix2 j q)

/-- The index maps in closed form, decided over the grid: every window's block index on the out axis is t / 16,
    on the in axis t / 2 mod 8, on the quantile axis t mod 2. -/
theorem idx_facts : ∀ t : Fin cfg0.N,
    win0_0.index t (0 : Fin 3) = t.val / 16 ∧ win0_0.index t (1 : Fin 3) = t.val / 2 % 8
    ∧ win0_0.index t (2 : Fin 3) = t.val % 2
    ∧ win0_1.index t (0 : Fin 2) = t.val / 16 ∧ win0_1.index t (1 : Fin 2) = t.val % 2
    ∧ win0_2.index t (0 : Fin 2) = t.val / 16 ∧ win0_2.index t (1 : Fin 2) = t.val / 2 % 8 :=
  (by decide +kernel : ∀ t : Fin grid0.N, _)

/-- The grid has 256 points. -/
theorem N_eq : cfg0.N = 256 := by decide

/-- The weights' block at point `t`, read at (a, b, q), is the weight at the array position under it. -/
theorem iw_block (c : Dev nD) (t : Fin cfg0.N) (a : Fin 64) (b q : Fin 128) (J K : Fin 1024) (Q : Fin 256)
    (hJ : J.val = t.val / 16 * 64 + a.val) (hK : K.val = t.val / 2 % 8 * 128 + b.val)
    (hQ : Q.val = t.val % 2 * 128 + q.val) :
    iblk0 V c 0 t (ValueIdx.ix3 a b q) = iwArr V c (ValueIdx.ix3 J K Q) := by
  obtain ⟨e0, e1, e2, -, -, -, -⟩ := idx_facts t
  show V c main_arg2 (((cfg0.win 0).blk t).view.emb (ValueIdx.ix3 a b q)) = V c main_arg2 (ValueIdx.ix3 J K Q)
  congr 1
  funext d
  apply Fin.ext
  match d with
  | ⟨0, _⟩ => show win0_0.index t (0 : Fin 3) * 64 + 1 * a.val = J.val; omega
  | ⟨1, _⟩ => show win0_0.index t (1 : Fin 3) * 128 + 1 * b.val = K.val; omega
  | ⟨2, _⟩ => show win0_0.index t (2 : Fin 3) * 128 + 1 * q.val = Q.val; omega

/-- The indicator's block at point `t`, read at (a, q), is the indicator at the array position under it. -/
theorem oh_block (c : Dev nD) (t : Fin cfg0.N) (a : Fin 64) (q : Fin 128) (J : Fin 1024) (Q : Fin 256)
    (hJ : J.val = t.val / 16 * 64 + a.val) (hQ : Q.val = t.val % 2 * 128 + q.val) :
    iblk0 V c 1 t (ValueIdx.ix2 a q) = ohArr V c (ValueIdx.ix2 J Q) := by
  obtain ⟨-, -, -, e3, e4, -, -⟩ := idx_facts t
  show V c main_v7 (((cfg0.win 1).blk t).view.emb (ValueIdx.ix2 a q)) = V c main_v7 (ValueIdx.ix2 J Q)
  congr 1
  funext d
  apply Fin.ext
  match d with
  | ⟨0, _⟩ => show win0_1.index t (0 : Fin 2) * 64 + 1 * a.val = J.val; omega
  | ⟨1, _⟩ => show win0_1.index t (1 : Fin 2) * 128 + 1 * q.val = Q.val; omega

/-- What a second-half point leaves in its output tile, at tile position `j`: the sum over all 256 quantiles, at
    the array position under `j`.  The first half's sum is read at the point before (the same tile, quantile half
    0), the second half's at the point itself (quantile half 1). -/
theorem point_value (c : Dev nD) (t : Fin cfg0.N) (hodd : t.val % 2 = 1) (j : S64x128.Idx) (J K : Fin 1024)
    (hJ : J.val = t.val / 16 * 64 + (j 0).val) (hK : K.val = t.val / 2 % 8 * 128 + (j 1).val) :
    k0_pay3 (F := Ideal) (k0_pay2 (iblk0 V c 0 t) (iblk0 V c 1 t)
      (k0_pay2 (iblk0 V c 0 (prev0 t)) (iblk0 V c 1 (prev0 t)) (k0_pay1 (F := Ideal)))) j = wSum V c J K := by
  obtain ⟨a, b, rfl⟩ : ∃ (a : Fin 64) (b : Fin 128), j = ValueIdx.ix2 a b := ⟨j 0, j 1, ValueIdx.eq_ix2 j⟩
  have hJ' : J.val = t.val / 16 * 64 + a.val := hJ
  have hK' : K.val = t.val / 2 % 8 * 128 + b.val := hK
  have hp : (prev0 t).val = t.val - 1 := rfl
  refine (pay3_apply _ _).trans ?_
  refine (pay2_apply (iblk0 V c 0 t) (iblk0 V c 1 t) _ a b).trans ?_
  refine (congrArg (· + _) ((pay2_apply (iblk0 V c 0 (prev0 t)) (iblk0 V c 1 (prev0 t)) _ a b).trans
    (congrArg (· + _) (pay1_apply a b)))).trans ?_
  unfold wSum
  refine Eq.trans ?_ (sum_halves fun Q => iwArr V c (ValueIdx.ix3 J K Q) * ohArr V c (ValueIdx.ix2 J Q))
  refine congrArg₂ (· + ·) (congrArg (0 + ·) (Finset.sum_congr rfl fun q _ => ?_)) (Finset.sum_congr rfl fun q _ => ?_)
  · exact congrArg₂ (· * ·)
      (iw_block V c (prev0 t) a b q J K ⟨q.val, by omega⟩ (by rw [hp]; omega) (by rw [hp]; omega)
        (by show q.val = (prev0 t).val % 2 * 128 + q.val; rw [hp]; omega))
      (oh_block V c (prev0 t) a q J ⟨q.val, by omega⟩ (by rw [hp]; omega)
        (by show q.val = (prev0 t).val % 2 * 128 + q.val; rw [hp]; omega))
  · exact congrArg₂ (· * ·)
      (iw_block V c t a b q J K ⟨128 + q.val, by omega⟩ hJ' hK' (by show 128 + q.val = t.val % 2 * 128 + q.val; omega))
      (oh_block V c t a q J ⟨128 + q.val, by omega⟩ hJ' (by show 128 + q.val = t.val % 2 * 128 + q.val; omega))

/-- The array the region leaves: at (j, k) the sum over the quantile axis. -/
abbrev wArr (c : Dev nD) : S1024x1024.Idx → EReal := fun i => wSum V c (i 0) (i 1)

/-- What a writing-back point writes back is its block of that array. -/
theorem flushed_eq (c : Dev nD) (t : Fin cfg0.N) (hf : (cfg0.win 2).flush t = true) :
    (dat0 (F := Ideal) V c).flushed 2 t = ((cfg0.win 2).blk t).view.read (Elt Ideal) (wArr V c) := by
  have hodd : t.val % 2 = 1 := (flush0_2 t).1 hf
  obtain ⟨-, -, -, -, -, e5, e6⟩ := idx_facts t
  show (cfg0.win 2).cut (grid0.coords t) ((dat0 (F := Ideal) V c).after 2 t) = _
  rw [after0_2, scAfter_odd V c t (by omega)]
  funext y
  show k0_pay3 (F := Ideal) _ ((cfg0.win 2).xinj (grid0.coords t) y)
    = wSum V c (((cfg0.win 2).blk t).view.emb y 0) (((cfg0.win 2).blk t).view.emb y 1)
  refine point_value V c t hodd _ _ _ ?_ ?_
  · show win0_2.index t (0 : Fin 2) * 64 + 1 * (y 0).val = t.val / 16 * 64 + (y 0).val
    omega
  · show win0_2.index t (1 : Fin 2) * 128 + 1 * (y 1).val = t.val / 2 % 8 * 128 + (y 1).val
    omega

/-- An index of the array is in point `t`'s block iff each coordinate is in the block's range on its axis. -/
theorem mem_blk (t : Fin cfg0.N) (i : S1024x1024.Idx) :
    i ∈ ((cfg0.win 2).blk t).view.set ↔
      ∀ a : Fin 2, win0_2.index t a * S64x128.size a ≤ (i a).val ∧ (i a).val < win0_2.index t a * S64x128.size a + S64x128.size a := by
  show i ∈ ((View.whole main_v8).slice (win0_2.rect t)).set ↔ _
  rw [View.set_slice_whole, Rect.mem_set_unit]
  exact Iff.rfl

/-- Every entry of the array lies in the block of a writing-back point: row r, column s in that of the second-half
    point of tile (r / 64, s / 128). -/
theorem cover (i : S1024x1024.Idx) :
    ∃ t : Fin cfg0.N, (cfg0.win 2).flush t = true ∧ i ∈ ((cfg0.win 2).blk t).view.set := by
  have h0 : (i 0).val < 1024 := (i 0).isLt
  have h1 : (i 1).val < 1024 := (i 1).isLt
  obtain ⟨t, ht⟩ : ∃ t : Fin cfg0.N, t.val = ((i 0).val / 64 * 8 + (i 1).val / 128) * 2 + 1 :=
    ⟨⟨((i 0).val / 64 * 8 + (i 1).val / 128) * 2 + 1, by rw [N_eq]; omega⟩, rfl⟩
  obtain ⟨-, -, -, -, -, e5, e6⟩ := idx_facts t
  refine ⟨t, (flush0_2 t).2 (by omega), ?_⟩
  rw [mem_blk]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 128 ≤ (i 1).val ∧ (i 1).val < win0_2.index t (1 : Fin 2) * 128 + 128
    omega

/-- The effective-weight array when the region ends: at (j, k), the sum over all 256 quantiles of weight times
    indicator, of the arrays the region was entered with. -/
theorem weff_array (c : Dev nD) :
    (dat0 (F := Ideal) V c).arrAt 2 cfg0.N
      = fun i : S1024x1024.Idx => ∑ q : Fin 256, iwArr V c (ValueIdx.ix3 (i 0) (i 1) q) * ohArr V c (ValueIdx.ix2 (i 0) q) :=
  (dat0 (F := Ideal) V c).arrAt_eq_of_cover 2 (wArr V c) (fun t hf => flushed_eq V c t hf) (cover)

/-- The same, read at explicit coordinates. -/
theorem weff_at (c : Dev nD) (j k : Fin 1024) :
    (dat0 (F := Ideal) V c).arrAt 2 cfg0.N (ValueIdx.ix2 j k)
      = ∑ q : Fin 256, iwArr V c (ValueIdx.ix3 j k q) * ohArr V c (ValueIdx.ix2 j q) :=
  congrFun (weff_array V c) (ValueIdx.ix2 j k)

end Cert.KernelIdeal.Val0

end
-- ==== Proof.KI.Val1.lean ====
/-
  Region 1's output array, index by index over the extended reals.

  Point t of the grid (4) writes back rows 1024·t … 1024·t + 1023 of the output; within the tile, entry (p, q) is the
  contraction over k of the x block's row p with the weight matrix's row q, plus the bias row's entry q: a matrix
  product into a zero accumulator is just that sum on the extended reals, narrowing x changes nothing, and the bias
  row is laid along the rows.  The four tiles are disjoint row bands that fill the array, so the array ends at
      out[r, q] = Σ_k x[r, k] · w[q, k] + bias[0, q]
  of the contents the region was entered with.  (The blocks-to-array part follows the steps of the generated closed
  form for pointwise kernels: the index maps' relations decided over the grid, what a point writes back as a block of
  one whole-array function, membership in a block coordinate by coordinate, the cover by division.)
-/
import proofs.«424812_j22239340659214_3_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The contraction's operand indices -/

theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix product into a zero accumulator, at (p, q): the sum over k of left[p, k] · right[q, k]. -/
theorem matmul_at (l : FVec Ideal S1024x1024 .bf16) (r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The bias row laid along the rows, at (p, q): its entry q. -/
theorem bias_at (x2 : Vec Ideal S1x1024 .f32) (p q : Fin 1024) :
    broadcastTo S1024x1024 x2 Facts₀.broadcasts_S1x1024_S1024x1024 (ix2 p q) = x2 (ix2 (0 : Fin 1) q) :=
  broadcastTo_apply x2 Facts₀.broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The body's stored value at (p, q). -/
theorem pay_apply (x0 : Vec Ideal S1024x1024 .f32) (x1 : Vec Ideal S1024x1024 .bf16) (x2 : Vec Ideal S1x1024 .f32) (p q : Fin 1024) :
    k1_pay1 (F := Ideal) x0 x1 x2 (ix2 p q) = (∑ k : Fin 1024, x0 (ix2 p k) * x1 (ix2 q k)) + x2 (ix2 (0 : Fin 1) q) := by
  unfold k1_pay1
  rw [addf_apply, shapeCast_self, shapeCast_self, matmul_at, bias_at]
  rfl

/-! ## From the tiles to the array -/

/-- The function the output array ends at, of the arrays the region reads. -/
def G1 (x : S4096x1024.Idx → EReal) (w : S1024x1024.Idx → EReal) (bi : S1x1024.Idx → EReal) : S4096x1024.Idx → EReal :=
  fun i => (∑ k : Fin 1024, x (ix2 (i 0) k) * w (ix2 (i 1) k)) + bi (ix2 (0 : Fin 1) (i 1))

/-- The index maps, decided over the four points: the x block and the output tile move together along the rows; every
    other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is tile `t` of `G1` of the arrays as the region finds them. -/
theorem flushed_eq (c : Dev nD) (t : Fin cfg1.N) :
    (dat1 V c).flushed 3 t = ((cfg1.win 3).blk t).view.read (Elt Ideal) (G1 (V c main_arg0) (V c main_v8) (V c main_v9)) := by
  show (cfg1.win 3).cut (grid1.coords t) ((dat1 V c).after 3 t) = _
  rw [after1_3]
  obtain ⟨e00, e01, e10, e11, e20, e21, e30, e31⟩ := idx_facts t
  funext y
  obtain ⟨p, q, rfl⟩ : ∃ (p q : Fin 1024), y = ix2 p q := ⟨y 0, y 1, eq_ix2 y⟩
  show k1_pay1 (F := Ideal) (iblk1 V c 0 t) (iblk1 V c 1 t) (iblk1 V c 2 t) (ix2 p q)
    = G1 (V c main_arg0) (V c main_v8) (V c main_v9) (((cfg1.win 3).blk t).view.emb (ix2 p q))
  refine (pay_apply _ _ _ p q).trans ?_
  unfold G1
  have hrow : ((((cfg1.win 3).blk t).view.emb (ix2 p q)) 0).val = t.val * 1024 + p.val := by
    show win1_3.index t (0 : Fin 2) * 1024 + 1 * p.val = _; omega
  have hcol : ((((cfg1.win 3).blk t).view.emb (ix2 p q)) 1).val = q.val := by
    show win1_3.index t (1 : Fin 2) * 1024 + 1 * q.val = _; omega
  refine congrArg₂ (· + ·) (Finset.sum_congr rfl fun k _ => congrArg₂ (· * ·) ?_ ?_) ?_
  · show V c main_arg0 (((cfg1.win 0).blk t).view.emb (ix2 p k)) = V c main_arg0 _
    refine congrArg _ (funext fun a => Fin.ext ?_)
    match a with
    | ⟨0, _⟩ => show win1_0.index t (0 : Fin 2) * 1024 + 1 * p.val = ((((cfg1.win 3).blk t).view.emb (ix2 p q)) 0).val; rw [hrow]; omega
    | ⟨1, _⟩ => show win1_0.index t (1 : Fin 2) * 1024 + 1 * k.val = k.val; omega
  · show V c main_v8 (((cfg1.win 1).blk t).view.emb (ix2 q k)) = V c main_v8 _
    refine congrArg _ (funext fun a => Fin.ext ?_)
    match a with
    | ⟨0, _⟩ => show win1_1.index t (0 : Fin 2) * 1024 + 1 * q.val = ((((cfg1.win 3).blk t).view.emb (ix2 p q)) 1).val; rw [hcol]; omega
    | ⟨1, _⟩ => show win1_1.index t (1 : Fin 2) * 1024 + 1 * k.val = k.val; omega
  · show V c main_v9 (((cfg1.win 2).blk t).view.emb (ix2 (0 : Fin 1) q)) = V c main_v9 _
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * q.val = ((((cfg1.win 3).blk t).view.emb (ix2 p q)) 1).val; rw [hcol]; omega

/-- An index of the array is in point `t`'s tile iff each coordinate is in the tile's range on its axis. -/
theorem mem_blk (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v10).slice (win1_3.rect t)).set ↔ _
  rw [View.set_slice_whole, Rect.mem_set_unit]
  exact Iff.rfl

/-- Every index of the array is in the tile of the point its row falls in. -/
theorem cover (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 4 := N_1
  refine ⟨⟨(i 0).val / 1024, by omega⟩, flush1_3 _, ?_⟩
  rw [mem_blk]
  obtain ⟨e00, e01, e10, e11, e20, e21, e30, e31⟩ := idx_facts ⟨(i 0).val / 1024, by omega⟩
  intro a
  match a with
  | ⟨0, _⟩ => show win1_3.index _ (0 : Fin 2) * 1024 ≤ (i 0).val ∧ (i 0).val < win1_3.index _ (0 : Fin 2) * 1024 + 1024; rw [e30]; show (i 0).val / 1024 * 1024 ≤ (i 0).val ∧ (i 0).val < (i 0).val / 1024 * 1024 + 1024; omega
  | ⟨1, _⟩ => show win1_3.index _ (1 : Fin 2) * 1024 ≤ (i 1).val ∧ (i 1).val < win1_3.index _ (1 : Fin 2) * 1024 + 1024; rw [e31]; omega

/-- THE OUTPUT ARRAY when the region ends. -/
theorem out_array (c : Dev nD) :
    (dat1 V c).arrAt 3 cfg1.N = G1 (V c main_arg0) (V c main_v8) (V c main_v9) :=
  (dat1 V c).arrAt_eq_of_cover 3 (G1 (V c main_arg0) (V c main_v8) (V c main_v9)) (fun t _ => flushed_eq V c t) cover

end Cert.KernelIdeal.Val1

end
-- ==== Proof.Spec.lean ====
/-
  The function both programs compute, index by index over the extended reals.

  With q(j) = indices[4095, j], the last row of the index array read as a position on the
  quantile axis,

      out[b, j] = Σ_k x[b, k] · iw[j, k, q(j)] + bias[j].

  The reference reaches it by a gather along the quantile axis followed by one contraction over k;
  the kernel by a sum over ALL quantiles against the indicator of q(j) (taken in two halves of 128
  and accumulated), followed by the same contraction.  The two agree wherever q(j) is a position of
  the axis, 0 ≤ indices[4095, j] < 256 (`InRange`): outside it the reference wraps a negative word
  or fills with its not-a-number constant while the kernel clamps.  Nothing else of the inputs is
  used: on the extended reals 0 · a = 0 for every a, infinite ones included, so the indicator sum
  selects its one term exactly.
-/
import Idealize.ShloMosaic.PureOps.Ideal
import Idealize.ShloMosaic.Lib.ValueIdx

noncomputable section

namespace Cert.Spec

open Idealize.ShloMosaic Idealize.ShloMosaic.ValueIdx

/-- [batch, in] and [batch, out]: 4096 × 1024. -/
abbrev SX : Shape := ⟨2, ![4096, 1024]⟩
/-- [out, in, quantile]: 1024 × 1024 × 256. -/
abbrev SW : Shape := ⟨3, ![1024, 1024, 256]⟩
/-- [out]: 1024. -/
abbrev SB : Shape := ⟨1, ![1024]⟩
/-- [out, in]: 1024 × 1024. -/
abbrev SE : Shape := ⟨2, ![1024, 1024]⟩

/-- The last row of the index array. -/
abbrev lastRow : Fin 4096 := ⟨4095, by decide⟩

/-- The word `indices[4095, j]`. -/
def word (idx : IVec SX 32) (j : Fin 1024) : BitVec 32 := idx (ix2 lastRow j)

/-- Every word of the last row is a position on the quantile axis: `0 ≤ indices[4095, j] < 256`
    (a 32-bit word below 256 reads the same signed and unsigned). -/
def InRange (idx : IVec SX 32) : Prop := ∀ j : Fin 1024, (word idx j).toNat < 256

/-- The quantile that output row `j` selects: the word's value (taken mod 256 so that it is total;
    under `InRange` the reduction does nothing). -/
def sel (idx : IVec SX 32) (j : Fin 1024) : Fin 256 := ⟨(word idx j).toNat % 256, Nat.mod_lt _ (by decide)⟩

theorem sel_val {idx : IVec SX 32} (h : InRange idx) (j : Fin 1024) : (sel idx j).val = (word idx j).toNat :=
  Nat.mod_eq_of_lt (h j)

/-- The effective weight matrix: `w[j, k] = iw[j, k, q(j)]`. -/
def wEff (idx : IVec SX 32) (iw : FVec Ideal SW .f32) (j k : Fin 1024) : EReal :=
  iw (ix3 j k (sel idx j))

/-- The result at batch row `b`, output column `j`. -/
def out (x : FVec Ideal SX .f32) (idx : IVec SX 32) (iw : FVec Ideal SW .f32) (bias : FVec Ideal SB .f32)
    (b : Fin 4096) (j : Fin 1024) : EReal :=
  (∑ k : Fin 1024, x (ix2 b k) * wEff idx iw j k) + bias (ix1 j)

/-- The result array. -/
def G (x : FVec Ideal SX .f32) (idx : IVec SX 32) (iw : FVec Ideal SW .f32) (bias : FVec Ideal SB .f32) :
    FVec Ideal SX .f32 :=
  fun i => out x idx iw bias (i 0) (i 1)

theorem G_apply (x : FVec Ideal SX .f32) (idx : IVec SX 32) (iw : FVec Ideal SW .f32) (bias : FVec Ideal SB .f32)
    (b : Fin 4096) (j : Fin 1024) : G x idx iw bias (ix2 b j) = out x idx iw bias b j := rfl

/-- A sum against the indicator of one position is the term there: on the extended reals
    `a · 0 = 0` for every `a`, the infinities included. -/
theorem sum_mul_indicator {n : ℕ} (f : Fin n → EReal) (q : Fin n) :
    ∑ k : Fin n, f k * (if k = q then (1 : EReal) else 0) = f q := by
  rw [Finset.sum_eq_single q]
  · rw [if_pos rfl, mul_one]
  · intro k _ hk; rw [if_neg hk, mul_zero]
  · intro h; exact absurd (Finset.mem_univ q) h

end Cert.Spec

end
-- ==== Proof.KI.HostVal.lean ====
/-
  What the host glue leaves in the two arrays the kernels read that no kernel wrote.

  Before the first kernel the host computes, from the index array idx, the indicator

      oh[j, q] = 1 if q = clip(idx[4095, j]) else 0,        j < 1024, q < 256,

  as a chain of array operations: the slice [4095:4096, :] of idx reshaped to a row of 1024 words;
  the clip of each word to [0, 255] (the signed maximum with 0, then the signed minimum with 255);
  the column of clipped words laid along the second axis of a [1024, 256] rectangle; its comparison
  with the position along that axis; the one-bit result converted to a float.  Read at (j, q):
  the position is the word q; the rectangle holds the clipped word of row j, which, when
  idx[4095, j] is already a position of the quantile axis, is idx[4095, j] itself; two words below
  2³² are equal exactly when their values are; and the bit, read as an unsigned number, is 1 or 0.
  So oh[j, q] is the indicator of q = idx[4095, j].

  Between the two kernels the host reshapes the bias from [1024] to [1, 1024]: position
  0·1024 + j of the one-row block is position j of the vector.
-/
import proofs.«424812_j22239340659214_3_alg».proof.Proof.Gen.KernelIdeal.Regions
import proofs.«424812_j22239340659214_3_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal

noncomputable section

namespace Cert.KernelIdeal.HostVal

open Cert.KernelIdeal Cert.KernelIdeal.Gen
open Idealize.ShloMosaic Idealize.ShloMosaic.TcCoe Idealize.ShloMosaic.ValueIdx Idealize.SL.Sem
open Idealize.ShloMosaic.StableHlo

/-! ## Words -/

/-- The clip to [0, 255] leaves a word below 256 alone: such a word reads the same signed and
    unsigned, so it is neither below 0 nor above 255. -/
theorem clip_of_lt (w : BitVec 32) (hw : w.toNat < 256) : IntOp.minsi 255#32 (IntOp.maxsi 0#32 w) = w := by
  have hti : w.toInt = w.toNat := Predicate.toInt_eq_toNat_of_lt (by omega)
  have h0 : (0#32 : BitVec 32).toInt = 0 := by decide
  have h255 : (255#32 : BitVec 32).toInt = 255 := by decide
  have hmax : IntOp.maxsi 0#32 w = w := by
    unfold IntOp.maxsi
    rw [if_neg]
    rw [BitVec.slt_iff_toInt_lt, hti, h0]; omega
  rw [hmax]
  unfold IntOp.minsi
  rw [if_neg]
  rw [BitVec.slt_iff_toInt_lt, hti, h255]; omega

/-- The word of a position q < 256 equals a word exactly when the word's value is q. -/
theorem cmpi_eq_ofNat (q : Fin 256) (w : BitVec 32) :
    IntOp.cmpi .eq (BitVec.ofNat 32 q.val) w = 1#1 ↔ q.val = w.toNat := by
  rw [IntOp.cmpi_eq]
  have hq := q.isLt
  constructor
  · intro e
    have := congrArg BitVec.toNat e
    rw [BitVec.toNat_ofNat] at this
    omega
  · intro e
    apply BitVec.eq_of_toNat_eq
    rw [BitVec.toNat_ofNat]
    omega

/-- A bit read as an unsigned number, on the extended reals: 1 or 0. -/
theorem uitofp_bit (b : BitVec 1) :
    (FloatOps.uitofp (F := Ideal) .f32 b : EReal) = if b = 1#1 then 1 else 0 := by
  rcases (by decide : ∀ b : BitVec 1, b = 0#1 ∨ b = 1#1) b with rfl | rfl
  · show (((0#1 : BitVec 1).toNat : ℝ) : EReal) = _
    rw [if_neg (by decide)]
    simp
  · show (((1#1 : BitVec 1).toNat : ℝ) : EReal) = _
    rw [if_pos rfl]
    simp

/-! ## The indicator -/

/-- The last row of the index array through the slice and the reshape: element j is idx[4095, j]. -/
theorem lastRow_read (idx : IVec S4096x1024 32) (hs : S4096x1024.Slices ![4095, 0] S1x1024)
    (hc : S1x1024.ShapeCasts S1024) (j : Fin 1024) :
    shapeCast S1024 (extractStridedSlice S1x1024 ![4095, 0] idx hs) hc (ix1 j) = idx (ix2 Cert.Spec.lastRow j) := by
  rw [shapeCast_apply _ hc (ix1 j) (ix2 (0 : Fin 1) j)
    (by rw [Shape.rowMajor_val_two, Shape.rowMajor_val_one]; show 0 * 1024 + j.val = j.val; omega)]
  exact extractStridedSlice_apply ![4095, 0] idx hs (ix2 (0 : Fin 1) j) (ix2 Cert.Spec.lastRow j) (fun a => match a with
    | ⟨0, _⟩ => by show 4095 = 4095 + 0; omega
    | ⟨1, _⟩ => by show j.val = 0 + j.val; omega)

/-- The indicator array as the host's operations build it from the index array. -/
def onehot (idx : IVec S4096x1024 32) : FVec Ideal S1024x256 .f32 :=
  uitofp .f32
    (cmpi .eq (iotaInDim S1024x256 32 1)
      (broadcastInDim S1024x256 ![0, 1] Facts₀.bcast_S1024x1_S1024x256_0_1
        (broadcastInDim S1024x1 ![0] Facts₀.bcast_S1024_S1024x1_0
          (minsi (broadcastInDim S1024 ![] Facts₀.bcast_S_S1024 (constantI S_ 32 255#32))
            (maxsi (broadcastInDim S1024 ![] Facts₀.bcast_S_S1024 (constantI S_ 32 0#32))
              (shapeCast S1024 (extractStridedSlice S1x1024 ![4095, 0] idx Facts₀.slices_S4096x1024_S1x1024_4095_0)
                Facts₀.shapeCasts_S1x1024_S1024))))))

/-- The indicator read at (j, q), when the last index row is in range. -/
theorem onehot_read (idx : IVec S4096x1024 32) (h : Cert.Spec.InRange idx) (j : Fin 1024) (q : Fin 256) :
    onehot idx (ix2 j q) = if q = Cert.Spec.sel idx j then (1 : EReal) else 0 := by
  have hw : (idx (ix2 Cert.Spec.lastRow j)).toNat < 256 := h j
  -- the rectangle at (j, q) is the column at (j, 0), which is the clipped row at j
  have hrect : broadcastInDim S1024x256 ![0, 1] Facts₀.bcast_S1024x1_S1024x256_0_1
        (broadcastInDim S1024x1 ![0] Facts₀.bcast_S1024_S1024x1_0
          (minsi (broadcastInDim S1024 ![] Facts₀.bcast_S_S1024 (constantI S_ 32 255#32))
            (maxsi (broadcastInDim S1024 ![] Facts₀.bcast_S_S1024 (constantI S_ 32 0#32))
              (shapeCast S1024 (extractStridedSlice S1x1024 ![4095, 0] idx Facts₀.slices_S4096x1024_S1x1024_4095_0)
                Facts₀.shapeCasts_S1x1024_S1024)))) (ix2 j q)
      = idx (ix2 Cert.Spec.lastRow j) := by
    rw [broadcastInDim_apply _ Facts₀.bcast_S1024x1_S1024x256_0_1 _ (ix2 j q) (ix2 j (0 : Fin 1)) (fun a => match a with
      | ⟨0, _⟩ => by show j.val = if (1024 : Nat) = 1 then 0 else j.val; rw [if_neg (by decide)]
      | ⟨1, _⟩ => by show (0 : Nat) = if (1 : Nat) = 1 then 0 else q.val; rw [if_pos rfl])]
    rw [broadcastInDim_apply _ Facts₀.bcast_S1024_S1024x1_0 _ (ix2 j (0 : Fin 1)) (ix1 j) (fun a => match a with
      | ⟨0, _⟩ => by show j.val = if (1024 : Nat) = 1 then 0 else j.val; rw [if_neg (by decide)])]
    show IntOp.minsi 255#32 (IntOp.maxsi 0#32
      (shapeCast S1024 (extractStridedSlice S1x1024 ![4095, 0] idx Facts₀.slices_S4096x1024_S1x1024_4095_0)
        Facts₀.shapeCasts_S1x1024_S1024 (ix1 j))) = _
    rw [lastRow_read idx _ _ j]
    exact clip_of_lt _ hw
  show FloatOps.uitofp (F := Ideal) .f32 (IntOp.cmpi .eq (BitVec.ofNat 32 q.val) _) = _
  rw [hrect, uitofp_bit]
  have hiff : IntOp.cmpi .eq (BitVec.ofNat 32 q.val) (idx (ix2 Cert.Spec.lastRow j)) = 1#1 ↔ q = Cert.Spec.sel idx j := by
    rw [cmpi_eq_ofNat, Fin.ext_iff, Cert.Spec.sel_val h j]; rfl
  by_cases hq : q = Cert.Spec.sel idx j
  · rw [if_pos hq, if_pos (hiff.2 hq)]
  · rw [if_neg hq, if_neg (fun e => hq (hiff.1 e))]

/-- THE INDICATOR the first kernel is entered with: at (j, q) it is 1 when q is the quantile row j
    selects and 0 otherwise. -/
theorem onehot_apply (m : (ℓ : Loc nD τ sig) → Buf (Elt Ideal) ℓ) (c : Dev nD)
    (h : Cert.Spec.InRange (m ((c.tc : Thread nD τ).loc main_arg1))) (j : Fin 1024) (q : Fin 256) :
    (V3 (F := Ideal) m c (Proc.devRef .tc main_v7) : S1024x256.Idx → EReal) (ValueIdx.ix2 j q)
      = if q = Cert.Spec.sel (m ((c.tc : Thread nD τ).loc main_arg1)) j then (1 : EReal) else 0 := by
  have e : (V3 (F := Ideal) m c (Proc.devRef .tc main_v7) : S1024x256.Idx → EReal)
      = onehot (m ((c.tc : Thread nD τ).loc main_arg1)) := by
    dsimp only [V3, V2, V1, V0]
    simp only [hostOps0, hostOps0_1, hostOps0_2]
    after_results
    rfl
  rw [e]
  exact onehot_read _ h j q

/-! ## The bias row -/

/-- A vector of 1024 reshaped to one row reads, at (0, j), the vector at j. -/
theorem row_read {α : Type} (v : S1024.Idx → α) (hc : S1024.ShapeCasts S1x1024) (j : Fin 1024) :
    shapeCast S1x1024 v hc (ix2 (0 : Fin 1) j) = v (ix1 j) :=
  shapeCast_apply v hc (ix2 (0 : Fin 1) j) (ix1 j)
    (by rw [Shape.rowMajor_val_two, Shape.rowMajor_val_one]; show j.val = 0 * 1024 + j.val; omega)

/-- THE BIAS ROW: whatever the arrays hold when the reshape runs, afterwards its result holds the
    bias array of that moment laid out as one row. -/
theorem bias_row_apply (W : Valuation τ sig (Elt Ideal)) (j : Fin 1024) :
    (StableHlo.after (hostOps1 (F := Ideal)) W (Proc.devRef .tc main_v9) : S1x1024.Idx → EReal) (ValueIdx.ix2 (0 : Fin 1) j)
      = (W (Proc.devRef .tc main_arg3) : S1024.Idx → EReal) (ValueIdx.ix1 j) := by
  have e : (StableHlo.after (hostOps1 (F := Ideal)) W (Proc.devRef .tc main_v9) : S1x1024.Idx → EReal)
      = shapeCast S1x1024 (W (Proc.devRef .tc main_arg3) : S1024.Idx → EReal) Facts₀.shapeCasts_S1024_S1x1024 := by
    simp only [hostOps1]
    after_results
    rfl
  rw [e, row_read]

/-- The same over the launch contents: no operation or kernel before the reshape writes the bias,
    so the row is the bias as launched. -/
theorem bias_row_launch (m : (ℓ : Loc nD τ sig) → Buf (Elt Ideal) ℓ) (outs : Outs (F := Ideal)) (c : Dev nD) (j : Fin 1024) :
    (V5 (F := Ideal) m outs c (Proc.devRef .tc main_v9) : S1x1024.Idx → EReal) (ValueIdx.ix2 (0 : Fin 1) j)
      = (m ((c.tc : Thread nD τ).loc main_arg3) : S1024.Idx → EReal) (ValueIdx.ix1 j) := by
  have e3 : V4 (F := Ideal) m outs c main_arg3 = m ((c.tc : Thread nD τ).loc main_arg3) :=
    (V4_of m outs c main_arg3 (by decide)).trans <| (V3_of m c main_arg3 (by decide)).trans <|
      (V2_of m c main_arg3 (by decide)).trans <| (V1_of m c main_arg3 (by decide)).trans rfl
  show (StableHlo.after (hostOps1 (F := Ideal)) (V4 (F := Ideal) m outs c) (Proc.devRef .tc main_v9) : S1x1024.Idx → EReal) _ = _
  rw [bias_row_apply, e3]

end Cert.KernelIdeal.HostVal

end
-- ==== Proof.KI.KVal.lean ====
/-
  The kernel's result array is the specification's function of the arguments.

  Read backwards through the run: the output array is x·wᵀ + bias of the contents the second region is entered with;
  there x is the argument as launched (nothing wrote it), the bias row is the bias argument re-laid as one row, and w is
  what the first region left, Σ_q iw[j, k, q] · oh[j, q] of the contents IT was entered with: the weights as launched and
  the indicator oh[j, q] = [q = q(j)] the host glue built from the last row of the index array.  A sum against the
  indicator of one position is the term there, so w[j, k] = iw[j, k, q(j)].
-/
import proofs.«424812_j22239340659214_3_alg».proof.Proof.KI.Run
import proofs.«424812_j22239340659214_3_alg».proof.Proof.KI.Val0
import proofs.«424812_j22239340659214_3_alg».proof.Proof.KI.Val1
import proofs.«424812_j22239340659214_3_alg».proof.Proof.KI.HostVal
import proofs.«424812_j22239340659214_3_alg».proof.Proof.Spec

noncomputable section

namespace Cert.KernelIdeal.KVal

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

/-- x reaches the second region as launched. -/
theorem U5_arg0 (c : Dev nD) : U5 m c main_arg0 = m ((c : Thread nD τ).loc main_arg0) :=
  (W5_of m c main_arg0 (by decide)).trans <| (W4_of_ne m c main_arg0 (by decide)).trans
    (V3_arg m c main_arg0 (by decide) (by decide) (by decide))

/-- The second region's weight operand is what the first region left. -/
theorem U5_v8 (c : Dev nD) : U5 m c main_v8 = (dat0 (U3 m) c).arrAt 2 cfg0.N :=
  (W5_of m c main_v8 (by decide)).trans (W4_arr m c 2)

/-- The bias argument is untouched when the row is made from it. -/
theorem W4_arg3 (c : Dev nD) : W4 m c (Proc.devRef .tc main_arg3) = m ((c : Thread nD τ).loc main_arg3) :=
  (W4_of_ne m c main_arg3 (by decide)).trans (V3_arg m c main_arg3 (by decide) (by decide) (by decide))

/-- The weights reach the first region as launched. -/
theorem U3_arg2 (c : Dev nD) : U3 m c main_arg2 = m ((c : Thread nD τ).loc main_arg2) :=
  V3_arg m c main_arg2 (by decide) (by decide) (by decide)

/-- The second region's three operands, as arrays of extended reals. -/
abbrev xArr (c : Dev nD) : S4096x1024.Idx → EReal := U5 m c main_arg0
abbrev wArr (c : Dev nD) : S1024x1024.Idx → EReal := U5 m c main_v8
abbrev bArr (c : Dev nD) : S1x1024.Idx → EReal := U5 m c main_v9
/-- The bias argument, as an array. -/
abbrev biasArg (c : Dev nD) : S1024.Idx → EReal := m ((c.tc : Thread nD τ).loc main_arg3)

/-- The effective weights: the sum against the indicator selects the one quantile. -/
theorem weff_at (c : Dev nD) (h : Cert.Spec.InRange (m ((c.tc : Thread nD τ).loc main_arg1))) (j k : Fin 1024) :
    wArr m c (ix2 j k)
      = Cert.Spec.wEff (m ((c.tc : Thread nD τ).loc main_arg1)) (m ((c.tc : Thread nD τ).loc main_arg2)) j k := by
  show (U5 m c main_v8 : S1024x1024.Idx → EReal) (ix2 j k) = _
  rw [U5_v8]
  refine (Cert.KernelIdeal.Val0.weff_at (U3 m) c j k).trans ?_
  have e : ∀ q : Fin 256, Cert.KernelIdeal.Val0.ohArr (U3 m) c (ix2 j q)
      = if q = Cert.Spec.sel (m ((c.tc : Thread nD τ).loc main_arg1)) j then (1 : EReal) else 0 :=
    fun q => Cert.KernelIdeal.HostVal.onehot_apply m c h j q
  simp only [e]
  refine (Cert.Spec.sum_mul_indicator (fun q : Fin 256 => Cert.KernelIdeal.Val0.iwArr (U3 m) c (ix3 j k q)) _).trans ?_
  unfold Cert.Spec.wEff
  exact congrFun (U3_arg2 m c) _

/-- The bias row at (0, j) is the bias argument at j. -/
theorem bias_at (c : Dev nD) (j : Fin 1024) : bArr m c (ix2 (0 : Fin 1) j) = biasArg m c (ix1 j) := by
  refine (Cert.KernelIdeal.HostVal.bias_row_apply (W4 m c) j).trans ?_
  exact congrFun (W4_arg3 m c) _

/-- THE KERNEL'S RESULT: under the range hypothesis, the specification's function of the arguments as launched. -/
theorem kernel_result (c : Dev nD) (h : Cert.Spec.InRange (m ((c.tc : Thread nD τ).loc main_arg1))) :
    (dat1 (U5 m) c).arrAt 3 cfg1.N
      = Cert.Spec.G (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Val1.out_array]
  funext i
  obtain ⟨b, j, rfl⟩ : ∃ (b : Fin 4096) (j : Fin 1024), i = ix2 b j := ⟨i 0, i 1, eq_ix2 i⟩
  show (∑ k : Fin 1024, xArr m c (ix2 b k) * wArr m c (ix2 j k)) + bArr m c (ix2 (0 : Fin 1) j)
    = Cert.Spec.out _ _ _ _ b j
  unfold Cert.Spec.out
  refine congrArg₂ (· + ·) (Finset.sum_congr rfl fun k _ => congrArg₂ (· * ·) ?_ (weff_at m c h j k)) (bias_at m c j)
  exact congrFun (U5_arg0 m c) _

end Cert.KernelIdeal.KVal

end
-- ==== Proof.RefSide.lean ====
/-
  The reference program's result, read index by index.

  The reference takes the last row of the index array as a column of start indices, wraps a negative
  word by the axis length, gathers one element along the quantile axis for every (out, in) pair, masks
  the gathered element by "the wrapped word is a position of the axis", and contracts the masked matrix
  against the input.  Under the range hypothesis the wrap does nothing, the mask is all ones, the clamp of
  the gather does nothing, and what is left is the sum the specification states.
-/
import proofs.«424812_j22239340659214_3_alg».proof.Defs
import proofs.«424812_j22239340659214_3_alg».proof.Proof.Gen.ReferenceIdeal.Run
import proofs.«424812_j22239340659214_3_alg».proof.Proof.Gen.ReferenceIdeal.Read
import proofs.«424812_j22239340659214_3_alg».proof.Proof.Spec
import Idealize.ShloMosaic.Lib.StableHlo.Predicate

noncomputable section

namespace Cert.RefSide

open Cert.ReferenceIdeal Cert.ReferenceIdeal.Gen Cert.ReferenceIdeal.Read Idealize.ShloMosaic
  Idealize.ShloMosaic.ValueIdx Idealize.ShloMosaic.StableHlo.Predicate

/-- The output row a column-of-start-indices position belongs to. -/
abbrev rowOf (i : S1024x1x1.Idx) : Fin 1024 := ⟨(i 0).val, (i 0).isLt⟩

/-- The column of start indices holds the words of the index array's last row. -/
theorem v2_at (idx : IVec Cert.Spec.SX 32) (i : S1024x1x1.Idx) :
    val_main_v2 (F := Ideal) idx i = Cert.Spec.word idx (rowOf i) := by
  rw [val_main_v2_apply, val_main_v1_apply, val_main_v0_apply]
  unfold Cert.Spec.word
  congr 1
  funext a
  match a with
  | ⟨0, _⟩ => exact Fin.ext rfl
  | ⟨1, _⟩ => exact Fin.ext (Nat.mod_eq_of_lt (i 0).isLt)

/-- A word in range is not negative, so the wrap by the axis length leaves it alone. -/
theorem v4_at (idx : IVec Cert.Spec.SX 32) (h : Cert.Spec.InRange idx) (i : S1024x1x1.Idx) :
    val_main_call0_v4 (F := Ideal) idx i = Cert.Spec.word idx (rowOf i) := by
  rw [val_main_call0_v4_apply, val_main_call0_v1_apply, v2_at, val_main_call0_v0_apply, val_main_call0_c_apply]
  have hw := h (rowOf i)
  have h0 : (0#32 : BitVec 32).toNat = 0 := rfl
  have hlt : IntOp.cmpi .slt (Cert.Spec.word idx (rowOf i)) 0#32 = 0#1 :=
    eq_zero_of_ne_one fun e => by
      have := (slt_iff_toNat (by omega) (by decide)).1 e
      rw [h0] at this
      exact Nat.not_lt_zero _ this
  rw [hlt, select_zero]

/-- The range mask is one at every position: the word is at least 0 and at most 255. -/
theorem v10_at (idx : IVec Cert.Spec.SX 32) (h : Cert.Spec.InRange idx) (i : S1024x1x1.Idx) :
    val_main_call0_v10 (F := Ideal) idx i = 1#1 := by
  rw [val_main_call0_v10_apply, val_main_call0_v6_apply, val_main_call0_v9_apply, v4_at idx h,
    val_main_call0_v5_apply, val_main_call0_c_2_apply, val_main_call0_v8_apply, val_main_call0_v7_apply,
    val_main_call0_c_1_apply]
  have hw := h (rowOf i)
  have h255 : (255#32 : BitVec 32).toNat = 255 := rfl
  rw [(sge_iff_toNat (by omega) (by decide)).2 (Nat.zero_le _),
    (sle_iff_toNat (by omega) (by decide)).2 (by rw [h255]; omega)]
  rfl

/-- A left fold of `and` from one over words that are all one is one. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    rfl

/-- The mask reduced by `and` over its last axis (of size one) is one at every position. -/
theorem v11_at (idx : IVec Cert.Spec.SX 32) (h : Cert.Spec.InRange idx) (p : S1024x1.Idx) :
    val_main_call0_v11 (F := Ideal) idx p = 1#1 := by
  unfold val_main_call0_v11 Host.reduce
  exact foldl_andi_one (fun n => val_main_call0_v10 (F := Ideal) idx (S1024x1x1.rowMajor.symm n)) _ _ rfl
    (fun n _ => v10_at idx h _)

/-- So is the mask broadcast along the input axis. -/
theorem v13_at (idx : IVec Cert.Spec.SX 32) (h : Cert.Spec.InRange idx) (i : S1024x1024x1.Idx) :
    val_main_call0_v13 (F := Ideal) idx i = 1#1 := by
  rw [val_main_call0_v13_apply]
  exact v11_at idx h _

/-- The gather's dimension numbers: batching axis 0, offset axis 1, collapsed and start-indexed axis 2. -/
abbrev gd : GatherDims S1024x1024x256 S1024x1x1 S1024x1024x1 :=
  gather_S1024x1024x256_S1024x1x1_S1024x1024x1_1_2_0_0_2_2_110241

/-- An index read at equal axes gives equal coordinates. -/
theorem coord_congr {s : Shape} (y : s.Idx) (a b : Fin s.rank) (e : a = b) : (y a).val = (y b).val := by rw [e]

/-- On the batching axis the operand index is the result's batch coordinate. -/
theorem gd_coord0 (y : S1024x1024x1.Idx) (v : IVec S1024x1x1 32) : (gd.operandIdx y v 0).val = (y 0).val := by
  show gd.start y v 0 + gd.batchCoord y 0 + gd.offCoord y 0 = _
  rw [gd.start_batching y v 0 (by decide), gd.offCoord_eq_zero y 0 (by decide), Nat.zero_add, Nat.add_zero]
  unfold GatherDims.batchCoord
  rw [dif_pos (by decide)]
  unfold GatherDims.siCoord
  exact coord_congr y _ _ (by decide)

/-- On the offset axis the operand index is the result's offset coordinate. -/
theorem gd_coord1 (y : S1024x1024x1.Idx) (v : IVec S1024x1x1 32) : (gd.operandIdx y v 1).val = (y 1).val := by
  show gd.start y v 1 + gd.batchCoord y 1 + gd.offCoord y 1 = _
  rw [gd.batchCoord_eq_zero y 1 (by decide), Nat.add_zero]
  unfold GatherDims.start GatherDims.offCoord
  rw [dif_neg (by decide), dif_pos (by decide), Nat.zero_add]
  exact coord_congr y _ _ (by decide)

/-- The start-indices position the start index of result position `y` is read at. -/
abbrev siOf (y : S1024x1024x1.Idx) : S1024x1x1.Idx :=
  gd.siIdx y ⟨List.idxOf (2 : Fin S1024x1024x256.rank) gd.startIndexMap, List.idxOf_lt_length_iff.2 (by decide)⟩

/-- On the collapsed axis the operand index is the start index read signed and clamped into the axis. -/
theorem gd_coord2 (y : S1024x1024x1.Idx) (v : IVec S1024x1x1 32) :
    (gd.operandIdx y v 2).val = min (v (siOf y)).toInt.toNat 255 := by
  show gd.start y v 2 + gd.batchCoord y 2 + gd.offCoord y 2 = _
  rw [gd.batchCoord_eq_zero y 2 (by decide), gd.offCoord_eq_zero y 2 (by decide), Nat.add_zero]
  unfold GatherDims.start
  rw [dif_pos (by decide)]
  rfl

/-- That position lies in the result position's row. -/
theorem rowOf_siOf (y : S1024x1024x1.Idx) : (rowOf (siOf y)).val = (y 0).val := by
  show ((siOf y) 0).val = _
  unfold siOf GatherDims.siIdx
  rw [dif_neg (by decide)]
  unfold GatherDims.siCoord
  exact coord_congr y _ _ (by decide)

/-- The gather reads, at (j, k, 0), the weight at (j, k, q) with q the word of row j: the batching axis carries j,
    the offset axis carries k, and on the collapsed axis the start index, read signed and clamped into the axis,
    is the word itself since the word is a position of the axis. -/
theorem gather_at (idx : IVec Cert.Spec.SX 32) (iw : FVec Ideal Cert.Spec.SW .f32) (h : Cert.Spec.InRange idx)
    (j k : Fin 1024) :
    val_main_call0_v12 (F := Ideal) idx iw (ix3 j k (0 : Fin 1)) = iw (ix3 j k (Cert.Spec.sel idx j)) := by
  unfold val_main_call0_v12 Host.gather
  congr 1
  funext a
  refine Fin.ext ?_
  match a with
  | ⟨0, _⟩ => exact gd_coord0 _ _
  | ⟨1, _⟩ => exact gd_coord1 _ _
  | ⟨2, _⟩ =>
    refine (gd_coord2 _ _).trans ?_
    have hr : rowOf (siOf (ix3 j k (0 : Fin 1))) = j := Fin.ext (rowOf_siOf _)
    have hw := h j
    rw [v4_at idx h, hr, toInt_eq_toNat_of_lt (by omega), Int.toNat_natCast, Nat.min_eq_left (by omega)]
    exact (Cert.Spec.sel_val h j).symm

/-- The masked gathered element at (j, k, 0) is the gathered element: the mask is one. -/
theorem v3_at (idx : IVec Cert.Spec.SX 32) (iw : FVec Ideal Cert.Spec.SW .f32) (h : Cert.Spec.InRange idx)
    (j k : Fin 1024) :
    val_main_v3 (F := Ideal) idx iw (ix3 j k (0 : Fin 1)) = iw (ix3 j k (Cert.Spec.sel idx j)) := by
  rw [val_main_v3_apply, v13_at idx h, select_one, gather_at idx iw h]

/-- The effective weight matrix of the reference is the specification's. -/
theorem v4m_at (idx : IVec Cert.Spec.SX 32) (iw : FVec Ideal Cert.Spec.SW .f32) (h : Cert.Spec.InRange idx)
    (j k : Fin 1024) :
    val_main_v4 (F := Ideal) idx iw (ix2 j k) = Cert.Spec.wEff idx iw j k := by
  have e : idx_main_v4 (ix2 j k) = ix3 j k (0 : Fin 1) := by
    funext a
    match a with
    | ⟨0, _⟩ => exact Fin.ext (by show (j.val * 1024 + k.val) / 1024 = j.val; omega)
    | ⟨1, _⟩ => exact Fin.ext (by show (j.val * 1024 + k.val) / 1 % 1024 = k.val; omega)
    | ⟨2, _⟩ => rfl
  rw [val_main_v4_apply, e, v3_at idx iw h]
  rfl

/-- The reference computes the specified function. -/
theorem ref_result (x : FVec Ideal Cert.Spec.SX .f32) (idx : IVec Cert.Spec.SX 32)
    (iw : FVec Ideal Cert.Spec.SW .f32) (bias : FVec Ideal Cert.Spec.SB .f32) (h : Cert.Spec.InRange idx) :
    Cert.ReferenceIdeal.Read.val_main_v8 (F := Ideal) x idx iw bias = Cert.Spec.G x idx iw bias := by
  funext i
  obtain ⟨b, j, rfl⟩ : ∃ (b : Fin 4096) (j : Fin 1024), i = ix2 b j := ⟨i 0, i 1, eq_ix2 i⟩
  rw [Cert.Spec.G_apply, val_main_v8_apply, val_main_v5_apply, val_main_v7_apply, val_main_v6_apply, Ideal.addf_def]
  unfold Cert.Spec.out
  congr 1
  · refine Finset.sum_congr rfl fun k _ => ?_
    have el : lidx_main_v5 (ix2 b j) k = ix2 b k := by
      funext a
      match a with
      | ⟨0, _⟩ => rfl
      | ⟨1, _⟩ => rfl
    have er : ridx_main_v5 (ix2 b j) k = ix2 j k := by
      funext a
      match a with
      | ⟨0, _⟩ => rfl
      | ⟨1, _⟩ => rfl
    rw [el, er, v4m_at idx iw h]
  · congr 1
    funext a
    match a with
    | ⟨0, _⟩ => rfl

end Cert.RefSide

end
-- ==== Proof.PreDecode.lean ====
/-
  The precondition read back to the range of the last index row.

  The printed precondition is a conjunction of four one-bit words: three say the float inputs are
  finite, the fourth is the and-reduction over j of

      (indices[4095, j] ≥ 0) ∧ (indices[4095, j] < 256),      both compares signed,

  where the row indices[4095, ·] is reached as a slice [4095:4096, 0:1024] of the index array,
  reshaped from [1, 1024] to [1024].  When the whole conjunction is the word 1, its last conjunct
  is 1; an and-reduction that is 1 met only 1s, so the two compares hold at every j; the slice and
  the reshape read at j are the word indices[4095, j] (position 0·1024 + j of the one-row block is
  position j of the row); and a 32-bit word that is signed-nonnegative and signed-below 256 has
  unsigned value below 256.
-/
import proofs.«424812_j22239340659214_3_alg».proof.Pre_finite_inputs
import proofs.«424812_j22239340659214_3_alg».proof.Proof.Gen.Pre_finite_inputs
import proofs.«424812_j22239340659214_3_alg».proof.Proof.Spec
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx
open Cert.Pre_finite_inputs Cert.Pre_finite_inputs.Facts

/-- The scalar shape has one index. -/
instance : Subsingleton S_.Idx := ⟨fun a b => funext fun d => d.elim0⟩

/-- A 32-bit word that is nonnegative and below 256, both read signed, is below 256 read unsigned:
    a word with its top bit set reads signed as its unsigned value less 2³², which is negative. -/
theorem toNat_lt_of_signed (w : BitVec 32) (h0 : IntOp.cmpi .sge w 0#32 = 1#1)
    (h1 : IntOp.cmpi .slt w 256#32 = 1#1) : w.toNat < 256 := by
  rw [IntOp.cmpi_sge, show (0#32 : BitVec 32).toInt = 0 from by decide] at h0
  rw [IntOp.cmpi_slt, show (256#32 : BitVec 32).toInt = 256 from by decide] at h1
  have hw := w.isLt
  rw [BitVec.toInt_eq_toNat_cond] at h0 h1
  by_cases hc : 2 * w.toNat < 2 ^ 32
  · rw [if_pos hc] at h1; omega
  · rw [if_neg hc] at h0; omega

/-- The last row read through the slice and the reshape: element j of the reshaped one-row block
    is indices[4095, j]. -/
theorem lastRow_read (idx : IVec S4096x1024 32) (j : Fin 1024) :
    shapeCast S1024 (extractStridedSlice S1x1024 ![4095, 0] idx slices_S4096x1024_S1x1024_4095_0)
        shapeCasts_S1x1024_S1024 (ix1 j)
      = idx (ix2 Cert.Spec.lastRow j) := by
  rw [shapeCast_apply _ shapeCasts_S1x1024_S1024 (ix1 j) (ix2 (0 : Fin 1) j)
    (by rw [Shape.rowMajor_val_two, Shape.rowMajor_val_one]; show 0 * 1024 + j.val = j.val; omega)]
  exact extractStridedSlice_apply ![4095, 0] idx slices_S4096x1024_S1x1024_4095_0 (ix2 (0 : Fin 1) j)
    (ix2 Cert.Spec.lastRow j) (fun a => match a with
      | ⟨0, _⟩ => by show 4095 = 4095 + 0; omega
      | ⟨1, _⟩ => by show j.val = 0 + j.val; omega)

/-- The tail of the precondition (its last ten operations): when it is 1, the row it is given
    passes both compares at every position. -/
theorem part1_decode {F : FTy → Type} [FloatOps F] (idx : IVec S4096x1024 32) (v13 : IVec S_ 1)
    (v15 v16 : IVec S1024 32) (h : fn_part1 (F := F) idx v13 v15 v16 ix0 = 1#1) (j : Fin 1024) :
    IntOp.cmpi .sge (v15 (ix1 j)) (v16 (ix1 j)) = 1#1 ∧
      IntOp.cmpi .slt (idx (ix2 Cert.Spec.lastRow j)) 256#32 = 1#1 := by
  change IntOp.andi (v13 ix0)
    (Host.reduce IntOp.andi
      (andi (cmpi .sge v15 v16)
        (cmpi .slt
          (shapeCast S1024 (extractStridedSlice S1x1024 ![4095, 0] idx slices_S4096x1024_S1x1024_4095_0)
            shapeCasts_S1x1024_S1024)
          (broadcastInDim S1024 ![] bcast_S_S1024 (constantI S_ 32 256#32))))
      (constantI S_ 1 1#1) reducesTo_S1024_S_d0 h_S_ ix0) = 1#1 at h
  obtain ⟨-, h2⟩ := IntOp.andi_eq_one.1 h
  have h3 := Host.reduce_andi_all _ _ _ _ ix0 h2 (ix1 j)
  obtain ⟨hge, hlt⟩ := IntOp.andi_eq_one.1 h3
  refine ⟨hge, ?_⟩
  rw [← lastRow_read idx j]
  exact hlt

/-- THE PRECONDITION DECODED: every word of the last index row is a position on the quantile
    axis. -/
theorem inRange_of_pre {F : FTy → Type} [FloatOps F] (x : FVec F Cert.Spec.SX .f32) (idx : IVec Cert.Spec.SX 32)
    (iw : FVec F Cert.Spec.SW .f32) (bias : FVec F Cert.Spec.SB .f32)
    (h : Cert.Pre_finite_inputs.fn (F := F) x idx iw bias = fun _ => 1#1) : Cert.Spec.InRange idx := by
  intro j
  have e : fn_part1 (F := F) idx _
      (shapeCast S1024 (extractStridedSlice S1x1024 ![4095, 0] idx slices_S4096x1024_S1x1024_4095_0)
        shapeCasts_S1x1024_S1024)
      (broadcastInDim S1024 ![] bcast_S_S1024 (constantI S_ 32 0#32)) ix0 = 1#1 := congrFun h ix0
  obtain ⟨hge, hlt⟩ := part1_decode idx _ _ _ e j
  rw [lastRow_read idx j] at hge
  exact toNat_lt_of_signed _ hge hlt

end Cert.PreDecode

end
-- ==== Proof.lean ====
/-
  The certificate: the word-level kernel and its idealization run to the end with their arguments unchanged, the
  idealization rewrote nothing, and at the extended reals the idealized kernel and the idealized reference end with
  the same result.

  With q(j) = indices[4095, j] both compute out[b, j] = Σ_k x[b, k] · iw[j, k, q(j)] + bias[j].  The statement's
  precondition keeps q(j) on the quantile axis, 0 ≤ q(j) < 256, which is where the reference's gather is an ordinary
  read (outside it the reference wraps or fills, the kernel clamps).  The kernel's side is read off its run: two regions
  among host stretches, the first accumulating Σ_q iw[j, k, q] · [q = q(j)] over two halves of the quantile axis, the
  second contracting with x and adding the bias.  The reference's side is its generated run, read index by index.
  Finiteness of the float inputs is not used: on the extended reals a · 0 = 0 for every a.
-/
import proofs.«424812_j22239340659214_3_alg».proof.Defs
import proofs.«424812_j22239340659214_3_alg».proof.Proof.Gen.Kernel
import proofs.«424812_j22239340659214_3_alg».proof.Proof.Gen.KernelIdeal
import proofs.«424812_j22239340659214_3_alg».proof.Proof.Gen.ReferenceIdeal
import proofs.«424812_j22239340659214_3_alg».proof.Proof.Gen.Pre_finite_inputs
import proofs.«424812_j22239340659214_3_alg».proof.Proof.Gen.ReferenceIdeal.Run
import proofs.«424812_j22239340659214_3_alg».proof.Proof.Gen.ReferenceIdeal.Read
import proofs.«424812_j22239340659214_3_alg».proof.Proof.K.Run
import proofs.«424812_j22239340659214_3_alg».proof.Proof.KI.Run
import proofs.«424812_j22239340659214_3_alg».proof.Proof.KI.KVal
import proofs.«424812_j22239340659214_3_alg».proof.Proof.RefSide
import proofs.«424812_j22239340659214_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the specification's function of the (agreeing) arguments: the kernel's output array
    by its run read backwards, the reference's result by its run read index by index, each under the range of the last
    index row that the precondition states. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hR : ∀ c : Dev Cert.KernelIdeal.nD, Cert.Spec.InRange (m ((c.tc : Thread Cert.KernelIdeal.nD Cert.KernelIdeal.τ).loc Cert.KernelIdeal.main_arg1)) :=
    fun c => Cert.PreDecode.inRange_of_pre _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KVal.kernel_result m c (hR c)), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v8_eq, (hagree c).1, (hagree c).2.1, (hagree c).2.2.1, (hagree c).2.2.2]
    exact Cert.RefSide.ref_result _ _ _ _ (hR c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
